-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S256x32 : Shape := ⟨2, ![256, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S2x600000 : S_.BroadcastsInDim S2x600000 (![] : Fin 0 → Fin S2x600000.rank)
  reducesTo_S2x600000_S_d0_1 : S2x600000.ReducesTo [0, 1] S_

variable [Facts]

def fn_part2 {F : FTy → Type} [FloatOps F] (main_arg1 : IVec S2x600000 32) (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_c_14 : IVec S_ 32 := constantI S_ 32 0#32
  let main_v39 : IVec S2x600000 32 := broadcastInDim S2x600000 ![] bcast_S_S2x600000 main_c_14
  let main_v40 : IVec S2x600000 1 := cmpi .sge main_arg1 main_v39
  let main_c_15 : IVec S_ 32 := constantI S_ 32 50000#32
  let main_v41 : IVec S2x600000 32 := broadcastInDim S2x600000 ![] bcast_S_S2x600000 main_c_15
  let main_v42 : IVec S2x600000 1 := cmpi .slt main_arg1 main_v41
  let main_v43 : IVec S2x600000 1 := andi main_v40 main_v42
  let main_c_16 : IVec S_ 1 := constantI S_ 1 1#1
  let main_v44 : IVec S_ 1 := (fun x v => Host.reduce IntOp.andi x v reducesTo_S2x600000_S_d0_1 h_S_) main_v43 main_c_16
  let main_v45 : IVec S_ 1 := andi main_v38 main_v44
  main_v45

def fn_part1 {F : FTy → Type} [FloatOps F] (main_arg1 : IVec S2x600000 32) (main_arg5 : FVec F S3x128 .f32) (main_arg6 : FVec F S3x128x128 .f32) (main_arg7 : FVec F S256x32 .f32) (main_arg8 : FVec F S32 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S256x32 .f32 := Host.absf main_arg7
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg1 main_arg8 main_v33

def fn {F : FTy → Type} [FloatOps F] (main_arg0 : FVec F S50000x256 .f32) (main_arg1 : IVec S2x600000 32) (main_arg2 : FVec F S256x128 .f32) (main_arg3 : FVec F S128 .f32) (main_arg4 : FVec F S3x128x128 .f32) (main_arg5 : FVec F S3x128 .f32) (main_arg6 : FVec F S3x128x128 .f32) (main_arg7 : FVec F S256x32 .f32) (main_arg8 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg1 main_arg5 main_arg6 main_arg7 main_arg8 main_v13 main_v16
-- ==== Kernel.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S256x32 : Shape := ⟨2, ![256, 32]⟩
abbrev S32 : Shape := ⟨1, ![32]⟩
abbrev S1x600000 : Shape := ⟨2, ![1, 600000]⟩
abbrev S600000 : Shape := ⟨1, ![600000]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128x128 : Shape := ⟨3, ![1, 128, 128]⟩
abbrev S128x128 : Shape := ⟨2, ![128, 128]⟩
abbrev S600000x256 : Shape := ⟨2, ![600000, 256]⟩
abbrev S1x32 : Shape := ⟨2, ![1, 32]⟩
abbrev S600000x32 : Shape := ⟨2, ![600000, 32]⟩
abbrev S6000x256 : Shape := ⟨2, ![6000, 256]⟩
abbrev S6000x32 : Shape := ⟨2, ![6000, 32]⟩

abbrev nBuf : Space → Nat
  | .hbm => 169
  | .vmem => 39
  | .smem => 0
  | _ => 0

abbrev hbmTy0_0 (i : Nat) : BufTy := match i % 128 with
  | 0 => ⟨S50000x256, .f32⟩
  | 1 => ⟨S2x600000, .i32⟩
  | 2 => ⟨S256x128, .f32⟩
  | 3 => ⟨S128, .f32⟩
  | 4 => ⟨S3x128x128, .f32⟩
  | 5 => ⟨S3x128, .f32⟩
  | 6 => ⟨S3x128x128, .f32⟩
  | 7 => ⟨S256x32, .f32⟩
  | 8 => ⟨S32, .f32⟩
  | 9 => ⟨S1x600000, .i32⟩
  | 10 => ⟨S600000, .i32⟩
  | 11 => ⟨S1x600000, .i32⟩
  | 12 => ⟨S600000, .i32⟩
  | 13 => ⟨S1x128, .f32⟩
  | 14 => ⟨S50000x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S1, .i32⟩
  | 24 => ⟨S_, .i32⟩
  | 25 => ⟨S600000x1, .i32⟩
  | 26 => ⟨S600000x1, .i1⟩
  | 27 => ⟨S1x1, .i32⟩
  | 28 => ⟨S600000x1, .i32⟩
  | 29 => ⟨S600000x1, .i1⟩
  | 30 => ⟨S600000x1, .i1⟩
  | 31 => ⟨S_, .i1⟩
  | 32 => ⟨S600000, .i1⟩
  | 33 => ⟨S600000x128, .f32⟩
  | 34 => ⟨S600000x128, .i1⟩
  | 35 => ⟨S_, .f32⟩
  | 36 => ⟨S600000x128, .f32⟩
  | 37 => ⟨S600000x128, .f32⟩
  | 38 => ⟨S_, .f32⟩
  | 39 => ⟨S50000x128, .f32⟩
  | 40 => ⟨S600000x1, .i32⟩
  | 41 => ⟨S50000x128, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S1, .i32⟩
  | 59 => ⟨S_, .i32⟩
  | 60 => ⟨S600000x1, .i32⟩
  | 61 => ⟨S600000x1, .i1⟩
  | 62 => ⟨S1x1, .i32⟩
  | 63 => ⟨S600000x1, .i32⟩
  | 64 => ⟨S600000x1, .i1⟩
  | 65 => ⟨S600000x1, .i1⟩
  | 66 => ⟨S_, .i1⟩
  | 67 => ⟨S600000, .i1⟩
  | 68 => ⟨S600000x128, .f32⟩
  | 69 => ⟨S600000x128, .i1⟩
  | 70 => ⟨S_, .f32⟩
  | 71 => ⟨S600000x128, .f32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S1x128x128, .f32⟩
  | 78 => ⟨S128x128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S50000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S1, .i32⟩
  | 94 => ⟨S_, .i32⟩
  | 95 => ⟨S600000x1, .i32⟩
  | 96 => ⟨S600000x1, .i1⟩
  | 97 => ⟨S1x1, .i32⟩
  | 98 => ⟨S600000x1, .i32⟩
  | 99 => ⟨S600000x1, .i1⟩
  | 100 => ⟨S600000x1, .i1⟩
  | 101 => ⟨S_, .i1⟩
  | 102 => ⟨S600000, .i1⟩
  | 103 => ⟨S600000x128, .f32⟩
  | 104 => ⟨S600000x128, .i1⟩
  | 105 => ⟨S_, .f32⟩
  | 106 => ⟨S600000x128, .f32⟩
  | 107 => ⟨S600000x128, .f32⟩
  | 108 => ⟨S_, .f32⟩
  | 109 => ⟨S50000x128, .f32⟩
  | 110 => ⟨S600000x1, .i32⟩
  | 111 => ⟨S50000x128, .f32⟩
  | 112 => ⟨S1x128x128, .f32⟩
  | 113 => ⟨S128x128, .f32⟩
  | 114 => ⟨S1x128, .f32⟩
  | 115 => ⟨S128, .f32⟩
  | 116 => ⟨S1x128x128, .f32⟩
  | 117 => ⟨S128x128, .f32⟩
  | 118 => ⟨S1x128, .f32⟩
  | 119 => ⟨S50000x128, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x256, .f32⟩

abbrev hbmTy0_1 (i : Nat) : BufTy := match i % 128 with
  | 0 => ⟨S1, .i32⟩
  | 1 => ⟨S_, .i32⟩
  | 2 => ⟨S600000x1, .i32⟩
  | 3 => ⟨S600000x1, .i1⟩
  | 4 => ⟨S1x1, .i32⟩
  | 5 => ⟨S600000x1, .i32⟩
  | 6 => ⟨S600000x1, .i1⟩
  | 7 => ⟨S600000x1, .i1⟩
  | 8 => ⟨S_, .i1⟩
  | 9 => ⟨S600000, .i1⟩
  | 10 => ⟨S600000x128, .f32⟩
  | 11 => ⟨S600000x128, .i1⟩
  | 12 => ⟨S_, .f32⟩
  | 13 => ⟨S600000x128, .f32⟩
  | 14 => ⟨S600000x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S1, .i32⟩
  | 24 => ⟨S_, .i32⟩
  | 25 => ⟨S600000x1, .i32⟩
  | 26 => ⟨S600000x1, .i1⟩
  | 27 => ⟨S1x1, .i32⟩
  | 28 => ⟨S600000x1, .i32⟩
  | 29 => ⟨S600000x1, .i1⟩
  | 30 => ⟨S600000x1, .i1⟩
  | 31 => ⟨S_, .i1⟩
  | 32 => ⟨S600000, .i1⟩
  | 33 => ⟨S600000x128, .f32⟩
  | 34 => ⟨S600000x128, .i1⟩
  | 35 => ⟨S_, .f32⟩
  | 36 => ⟨S600000x128, .f32⟩
  | 37 => ⟨S600000x128, .f32⟩
  | 38 => ⟨S600000x256, .f32⟩
  | 39 => ⟨S1x32, .f32⟩
  | 40 => ⟨S600000x32, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S6000x256, .f32⟩
  | .local _ .vmem, ⟨34, _⟩ => ⟨S6000x256, .f32⟩
  | .local _ .vmem, ⟨35, _⟩ => ⟨S256x32, .f32⟩
  | .local _ .vmem, ⟨36, _⟩ => ⟨S1x32, .f32⟩
  | .local _ .vmem, ⟨37, _⟩ => ⟨S6000x32, .f32⟩
  | .local _ .vmem, ⟨38, _⟩ => ⟨S6000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v18 : Ref sig .tc := ⟨.hbm, 72, rfl⟩
abbrev main_cst_0 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v30 : Ref sig .tc := ⟨.hbm, 107, rfl⟩
abbrev main_cst_1 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v42 : Ref sig .tc := ⟨.hbm, 142, rfl⟩
abbrev main_call4_c : Ref sig .tc := ⟨.hbm, 143, rfl⟩
abbrev main_call4_v0 : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_c_1 : Ref sig .tc := ⟨.hbm, 151, rfl⟩
abbrev main_call4_c_2 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_c_3 : Ref sig .tc := ⟨.hbm, 159, rfl⟩
abbrev main_call4_v12 : Ref sig .tc := ⟨.hbm, 160, rfl⟩
abbrev main_call4_v13 : Ref sig .tc := ⟨.hbm, 161, rfl⟩
abbrev main_call4_v14 : Ref sig .tc := ⟨.hbm, 162, rfl⟩
abbrev main_call4_cst : Ref sig .tc := ⟨.hbm, 163, rfl⟩
abbrev main_call4_v15 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S6000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S600000x128_S600000x128_S600000x256_d1 : Shape.Concatenates [S600000x128, S600000x128] S600000x256 1
  shapeCasts_S32_S1x32 : S32.ShapeCasts S1x32
  inb_S6000x256_S6000x256_0_0 : ∀ a, (![0, 0] : Fin 2 → Nat) a + S6000x256.size a ≤ S6000x256.size a
  h_S6000x256 : 0 < S6000x256.numel
  shapeCasts_S6000x256_S6000x256 : S6000x256.ShapeCasts S6000x256
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6000x32 : S1x32.Broadcasts S6000x32
  inb_S6000x32_S6000x32_0_0 : ∀ a, (![0, 0] : Fin 2 → Nat) a + S6000x32.size a ≤ S6000x32.size a
  h_S6000x32 : 0 < S6000x32.numel
  dot_S5000x256_S256x128_S5000x128_1_0_0_1_n_n_wf : DotDims.WF S5000x256 S256x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S6000x256_S256x32_S6000x32_1_0_0_1_n_n_wf : DotDims.WF S6000x256 S256x32 S6000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x256.size a ≤ S600000x256.size a
  hwx4_0 : ∀ i : grid4.Coords, EltTy.bits .f32 = 32 ∨ (Rect.block (s := S600000x256) S6000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x32.size a ≤ S256x32.size a
  hwx4_1 : ∀ i : grid4.Coords, EltTy.bits .f32 = 32 ∨ (Rect.block (s := S256x32) S256x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S6000x32.size a ≤ S600000x32.size a
  hwx4_3 : ∀ i : grid4.Coords, EltTy.bits .f32 = 32 ∨ (Rect.block (s := S600000x32) S6000x32.size (cc4_transform_3 i) (hinb4_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S6000x256_S256x32_S6000x32_1_0_0_1_n_n : DotDims S6000x256 S256x32 S6000x32 where
  lhsContracting := [1]
  rhsContracting := [0]
  lhsNonContracting := [0]
  rhsNonContracting := [1]
  lhsBatch := []
  rhsBatch := []
  wf := dot_S6000x256_S256x32_S6000x32_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v33) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v44) S6000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S6000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S256x32 : Shape := ⟨2, ![256, 32]⟩
abbrev S32 : Shape := ⟨1, ![32]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S600000x256 : Shape := ⟨2, ![600000, 256]⟩
abbrev S600000x32 : Shape := ⟨2, ![600000, 32]⟩
abbrev S1x32 : Shape := ⟨2, ![1, 32]⟩

abbrev nBuf : Space → Nat
  | .hbm => 127
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S256x32, .f32⟩
  | .hbm, ⟨8, _⟩ => ⟨S32, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S1x128x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S1x128x128, .f32⟩
  | .hbm, ⟨62, _⟩ => ⟨S128x128, .f32⟩
  | .hbm, ⟨63, _⟩ => ⟨S50000x128, .f32⟩
  | .hbm, ⟨64, _⟩ => ⟨S1x128, .f32⟩
  | .hbm, ⟨65, _⟩ => ⟨S128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .f32⟩
  | .hbm, ⟨85, _⟩ => ⟨S_, .f32⟩
  | .hbm, ⟨86, _⟩ => ⟨S50000x128, .f32⟩
  | .hbm, ⟨87, _⟩ => ⟨S600000x1, .i32⟩
  | .hbm, ⟨88, _⟩ => ⟨S50000x128, .f32⟩
  | .hbm, ⟨89, _⟩ => ⟨S1x128x128, .f32⟩
  | .hbm, ⟨90, _⟩ => ⟨S128x128, .f32⟩
  | .hbm, ⟨91, _⟩ => ⟨S50000x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1x128x128, .f32⟩
  | .hbm, ⟨98, _⟩ => ⟨S128x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S_, .i32⟩
  | .hbm, ⟨105, _⟩ => ⟨S600000, .i32⟩
  | .hbm, ⟨106, _⟩ => ⟨S600000, .i1⟩
  | .hbm, ⟨107, _⟩ => ⟨S_, .i32⟩
  | .hbm, ⟨108, _⟩ => ⟨S600000, .i32⟩
  | .hbm, ⟨109, _⟩ => ⟨S600000, .i32⟩
  | .hbm, ⟨110, _⟩ => ⟨S600000, .i32⟩
  | .hbm, ⟨111, _⟩ => ⟨S600000x1, .i32⟩
  | .hbm, ⟨112, _⟩ => ⟨S600000x128, .f32⟩
  | .hbm, ⟨113, _⟩ => ⟨S_, .i32⟩
  | .hbm, ⟨114, _⟩ => ⟨S600000, .i32⟩
  | .hbm, ⟨115, _⟩ => ⟨S600000, .i1⟩
  | .hbm, ⟨116, _⟩ => ⟨S_, .i32⟩
  | .hbm, ⟨117, _⟩ => ⟨S600000, .i32⟩
  | .hbm, ⟨118, _⟩ => ⟨S600000, .i32⟩
  | .hbm, ⟨119, _⟩ => ⟨S600000, .i32⟩
  | .hbm, ⟨120, _⟩ => ⟨S600000x1, .i32⟩
  | .hbm, ⟨121, _⟩ => ⟨S600000x128, .f32⟩
  | .hbm, ⟨122, _⟩ => ⟨S600000x256, .f32⟩
  | .hbm, ⟨123, _⟩ => ⟨S600000x32, .f32⟩
  | .hbm, ⟨124, _⟩ => ⟨S1x32, .f32⟩
  | .hbm, ⟨125, _⟩ => ⟨S600000x32, .f32⟩
  | .hbm, ⟨126, _⟩ => ⟨S600000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_cst : Ref sig .tc := ⟨.hbm, 45, rfl⟩
abbrev main_call1_v0 : Ref sig .tc := ⟨.hbm, 46, rfl⟩
abbrev main_v31 : Ref sig .tc := ⟨.hbm, 47, rfl⟩
abbrev main_c_1 : Ref sig .tc := ⟨.hbm, 48, rfl⟩
abbrev main_v32 : Ref sig .tc := ⟨.hbm, 49, rfl⟩
abbrev main_v33 : Ref sig .tc := ⟨.hbm, 50, rfl⟩
abbrev main_c_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call2_cst : Ref sig .tc := ⟨.hbm, 73, rfl⟩
abbrev main_call2_v0 : Ref sig .tc := ⟨.hbm, 74, rfl⟩
abbrev main_v54 : Ref sig .tc := ⟨.hbm, 75, rfl⟩
abbrev main_c_4 : Ref sig .tc := ⟨.hbm, 76, rfl⟩
abbrev main_v55 : Ref sig .tc := ⟨.hbm, 77, rfl⟩
abbrev main_v56 : Ref sig .tc := ⟨.hbm, 78, rfl⟩
abbrev main_c_5 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_6 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_call3_cst : Ref sig .tc := ⟨.hbm, 101, rfl⟩
abbrev main_call3_v0 : Ref sig .tc := ⟨.hbm, 102, rfl⟩
abbrev main_v77 : Ref sig .tc := ⟨.hbm, 103, rfl⟩
abbrev main_c_7 : Ref sig .tc := ⟨.hbm, 104, rfl⟩
abbrev main_v78 : Ref sig .tc := ⟨.hbm, 105, rfl⟩
abbrev main_v79 : Ref sig .tc := ⟨.hbm, 106, rfl⟩
abbrev main_c_8 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_9 : Ref sig .tc := ⟨.hbm, 113, rfl⟩
abbrev main_v85 : Ref sig .tc := ⟨.hbm, 114, rfl⟩
abbrev main_v86 : Ref sig .tc := ⟨.hbm, 115, rfl⟩
abbrev main_c_10 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S600000x128_S600000x128_S600000x256_d1 : Shape.Concatenates [S600000x128, S600000x128] S600000x256 1
  bcast_S32_S1x32_1 : S32.BroadcastsInDim S1x32 (![1] : Fin 1 → Fin S1x32.rank)
  bcast_S1x32_S600000x32_0_1 : S1x32.BroadcastsInDim S600000x32 (![0, 1] : Fin 2 → Fin S600000x32.rank)
  dot_S50000x256_S256x128_S50000x128_1_0_0_1_n_n_wf : DotDims.WF S50000x256 S256x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S600000x256_S256x32_S600000x32_1_0_0_1_n_n_wf : DotDims.WF S600000x256 S256x32 S600000x32 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x256_S256x32_S600000x32_1_0_0_1_n_n : DotDims S600000x256 S256x32 S600000x32 where
  lhsContracting := [1]
  rhsContracting := [0]
  lhsNonContracting := [0]
  rhsNonContracting := [1]
  lhsBatch := []
  rhsBatch := []
  wf := dot_S600000x256_S256x32_S600000x32_1_0_0_1_n_n_wf

class Facts : Prop extends Facts₀ where

variable [Facts]
-- ==== Proof.Spec.lean ====
/-
  The network both programs compute, written once as whole-array functions of the nine inputs.

  Nodes carry 128 features. The embedding is `x₀ = max(X·W + b, 0)`. A graph-convolution layer gathers the source
  node's row for every edge, sums the gathered rows into the destination nodes (a segment sum over the edge list) and
  mixes: `x' = max(agg·W_rel + b_rel + x·W_root, 0)`. The edge head gathers both endpoints of every edge, lays the two
  rows side by side and applies one linear map.

  Each piece is stated with the bias already shaped as a single row (`…Row`), because that is how a tiled matrix
  kernel receives it; `rowOf128` / `rowOf32` turn a bias vector into that row.
-/
import proofs.«416630_j84997402788219_1_alg».proof.ReferenceIdeal
import Idealize.ShloMosaic.PureOps.Ideal

noncomputable section

namespace Cert.Spec

open Idealize.ShloMosaic Cert.ReferenceIdeal Cert.ReferenceIdeal.Facts₀

variable {F : FTy → Type} [FloatOps F] [Cert.ReferenceIdeal.Facts₀]

/-- `max(y, 0)`, entry by entry, on a node-feature matrix. -/
def relu (y : FVec F S50000x128 .f32) : FVec F S50000x128 .f32 :=
  maximumf y (broadcastInDim S50000x128 ![] bcast_S_S50000x128 (constant S_ .f32 0x00000000#32))

/-- A bias vector of 128 entries as a one-row matrix. -/
def rowOf128 (b : FVec F S128 .f32) : FVec F S1x128 .f32 := broadcastInDim S1x128 ![1] bcast_S128_S1x128_1 b

/-- A bias vector of 32 entries as a one-row matrix. -/
def rowOf32 (b : FVec F S32 .f32) : FVec F S1x32 .f32 := broadcastInDim S1x32 ![1] bcast_S32_S1x32_1 b

/-- The node embedding `max(X·W + b, 0)`, the bias given as a row. -/
def embRow (x : FVec F S50000x256 .f32) (w : FVec F S256x128 .f32) (b : FVec F S1x128 .f32) : FVec F S50000x128 .f32 :=
  relu (addf (Host.dotGeneral dot_S50000x256_S256x128_S50000x128_1_0_0_1_n_n none x w)
    (broadcastInDim S50000x128 ![0, 1] bcast_S1x128_S50000x128_0_1 b))

/-- One graph-convolution layer on already aggregated messages: `max((agg·W_rel + b_rel) + x·W_root, 0)`. -/
def convRow (agg x : FVec F S50000x128 .f32) (relw : FVec F S128x128 .f32) (relb : FVec F S1x128 .f32)
    (rootw : FVec F S128x128 .f32) : FVec F S50000x128 .f32 :=
  relu (addf (addf (Host.dotGeneral dot_S50000x128_S128x128_S50000x128_1_0_0_1_n_n none agg relw)
      (broadcastInDim S50000x128 ![0, 1] bcast_S1x128_S50000x128_0_1 relb))
    (Host.dotGeneral dot_S50000x128_S128x128_S50000x128_1_0_0_1_n_n none x rootw))

/-- The edge head `E·W + b` on the 256 features of an edge, the bias given as a row. -/
def headRow (ef : FVec F S600000x256 .f32) (w : FVec F S256x32 .f32) (b : FVec F S1x32 .f32) : FVec F S600000x32 .f32 :=
  addf (Host.dotGeneral dot_S600000x256_S256x32_S600000x32_1_0_0_1_n_n none ef w)
    (broadcastInDim S600000x32 ![0, 1] bcast_S1x32_S600000x32_0_1 b)

/-- A node index per edge with a negative index counted from the end (`i < 0 ↦ i + 50000`), as the one-column
    index matrix a row gather takes. -/
def wrapIdx (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- Row `idx e` of the node features, for every edge `e`. -/
def gatherRows (x : FVec F S50000x128 .f32) (idx : IVec S600000 32) : FVec F S600000x128 .f32 :=
  Host.gather gather_S50000x128_S600000x1_S600000x128_1_0_n_n_0_1_1128 x (wrapIdx idx)

/-- The segment sum: edge `e`'s row added into node `dst e`, from zero. -/
def segSum (dst : IVec S600000 32) (u : FVec F S600000x128 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) u

/-- Both endpoint rows of every edge, side by side. -/
def edgeFeat (a b : FVec F S600000x128 .f32) : FVec F S600000x256 .f32 :=
  concatenate S600000x256 1 [⟨S600000x128, a⟩, ⟨S600000x128, b⟩] concatenates_S600000x128_S600000x128_S600000x256_d1

/-- The source node of every edge: row 0 of the edge list. -/
def srcOf (e : IVec S2x600000 32) : IVec S600000 32 :=
  shapeCast _ (extractStridedSlice S1x600000 ![0, 0] e slices_S2x600000_S1x600000_0_0) shapeCasts_S1x600000_S600000

/-- The destination node of every edge: row 1 of the edge list. -/
def dstOf (e : IVec S2x600000 32) : IVec S600000 32 :=
  shapeCast _ (extractStridedSlice S1x600000 ![1, 0] e slices_S2x600000_S1x600000_1_0) shapeCasts_S1x600000_S600000

/-- Layer 0's, 1's and 2's 128 × 128 matrix out of a stack of three. -/
def mat0 (w : FVec F S3x128x128 .f32) : FVec F S128x128 .f32 :=
  shapeCast _ (extractStridedSlice S1x128x128 ![0, 0, 0] w slices_S3x128x128_S1x128x128_0_0_0) shapeCasts_S1x128x128_S128x128
def mat1 (w : FVec F S3x128x128 .f32) : FVec F S128x128 .f32 :=
  shapeCast _ (extractStridedSlice S1x128x128 ![1, 0, 0] w slices_S3x128x128_S1x128x128_1_0_0) shapeCasts_S1x128x128_S128x128
def mat2 (w : FVec F S3x128x128 .f32) : FVec F S128x128 .f32 :=
  shapeCast _ (extractStridedSlice S1x128x128 ![2, 0, 0] w slices_S3x128x128_S1x128x128_2_0_0) shapeCasts_S1x128x128_S128x128

/-- Layer 0's, 1's and 2's bias vector out of a stack of three. -/
def vec0 (b : FVec F S3x128 .f32) : FVec F S128 .f32 :=
  shapeCast _ (extractStridedSlice S1x128 ![0, 0] b slices_S3x128_S1x128_0_0) shapeCasts_S1x128_S128
def vec1 (b : FVec F S3x128 .f32) : FVec F S128 .f32 :=
  shapeCast _ (extractStridedSlice S1x128 ![1, 0] b slices_S3x128_S1x128_1_0) shapeCasts_S1x128_S128
def vec2 (b : FVec F S3x128 .f32) : FVec F S128 .f32 :=
  shapeCast _ (extractStridedSlice S1x128 ![2, 0] b slices_S3x128_S1x128_2_0) shapeCasts_S1x128_S128

/-- One whole layer: gather the source rows, sum them into the destinations, mix. -/
def layer (src dst : IVec S600000 32) (x : FVec F S50000x128 .f32) (relw : FVec F S128x128 .f32) (relb : FVec F S128 .f32)
    (rootw : FVec F S128x128 .f32) : FVec F S50000x128 .f32 :=
  convRow (segSum dst (gatherRows x src)) x relw (rowOf128 relb) rootw

/-- The whole network: embedding, three layers, edge head. -/
def net (feat : FVec F S50000x256 .f32) (edges : IVec S2x600000 32) (embw : FVec F S256x128 .f32) (embb : FVec F S128 .f32)
    (relw : FVec F S3x128x128 .f32) (relb : FVec F S3x128 .f32) (rootw : FVec F S3x128x128 .f32)
    (headw : FVec F S256x32 .f32) (headb : FVec F S32 .f32) : FVec F S600000x32 .f32 :=
  let x3 := layer (srcOf edges) (dstOf edges)
    (layer (srcOf edges) (dstOf edges)
      (layer (srcOf edges) (dstOf edges) (embRow feat embw (rowOf128 embb)) (mat0 relw) (vec0 relb) (mat0 rootw))
      (mat1 relw) (vec1 relb) (mat1 rootw))
    (mat2 relw) (vec2 relb) (mat2 rootw)
  headRow (edgeFeat (gatherRows x3 (srcOf edges)) (gatherRows x3 (dstOf edges))) headw (rowOf32 headb)

end Cert.Spec

end
-- ==== Proof.TakeRows.lean ====
/-
  The gather the kernel's program uses fills a row with a quiet-NaN pattern when its index, after the negative
  wrap, falls outside `[0, 49999]`; the reference's gather does not test. Where every index of the edge list lies in
  `[0, 50000)` the test always passes, so the two gathers are one function.
-/
import proofs.«416630_j84997402788219_1_alg».proof.KernelIdeal
import proofs.«416630_j84997402788219_1_alg».proof.Pre_finite_inputs
import proofs.«416630_j84997402788219_1_alg».proof.Proof.Spec
import Idealize.ShloMosaic.Lib.ReduceAll
import Idealize.ShloMosaic.Lib.StableHlo.Predicate
import Idealize.ShloMosaic.Lib.ValueIdx
import Idealize.ShloMosaic.Lib.ValueLayout

noncomputable section

namespace Cert.KernelIdeal.TakeRows

open Idealize.ShloMosaic Cert.KernelIdeal Cert.KernelIdeal.Facts₀

variable {F : FTy → Type} [FloatOps F] [Cert.KernelIdeal.Facts₀] [Cert.ReferenceIdeal.Facts₀]

/-! ### Words and folds -/

/-- A left fold by `and` from 1 over words that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_all_one f hf l

/-- A reduce by `and` from 1 of an array whose every entry is 1 is 1 everywhere. -/
theorem reduce_andi_one {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  rw [Host.reduce_eq_foldl, hi]
  exact foldl_andi_all_one x hx _

/-- A broadcast of an array that is constant is that constant. -/
theorem bcast_of_const {α : Type} {s t : Shape} (dims : Fin s.rank → Fin t.rank) (hb : s.BroadcastsInDim t dims)
    (x : s.Idx → α) (c : α) (hx : ∀ k, x k = c) (j : t.Idx) : broadcastInDim t dims hb x j = c := hx _

/-- A word below 50000 is not negative: the wrap keeps it. -/
theorem wrap_word (a : BitVec 32) (ha : a.toNat < 50000) :
    Scalar.select (IntOp.cmpi .slt a 0#32) (IntOp.addi a 50000#32) a = a := by
  have hlt : ¬ IntOp.cmpi .slt a 0#32 = 1#1 := by
    rw [StableHlo.Predicate.slt_iff_toNat (by omega) (by decide)]
    exact Nat.not_lt_zero _
  rw [ValueIdx.eq_zero_of_ne_one hlt, ValueIdx.select_zero]

/-- A word below 50000 passes the test `0 ≤ · ≤ 49999`. -/
theorem guard_word (a : BitVec 32) (ha : a.toNat < 50000) :
    IntOp.andi (IntOp.cmpi .sge a 0#32) (IntOp.cmpi .sle a 49999#32) = 1#1 := by
  rw [IntOp.andi_eq_one]
  refine ⟨(StableHlo.Predicate.sge_iff_toNat (by omega) (by decide)).2 (Nat.zero_le _),
    (StableHlo.Predicate.sle_iff_toNat (by omega) (by decide)).2 ?_⟩
  show a.toNat ≤ 49999
  omega

/-- A word that tests `0 ≤ · < 50000` signed is below 50000 unsigned. -/
theorem word_lt_of_guard (a : BitVec 32) (h : IntOp.andi (IntOp.cmpi .sge a 0#32) (IntOp.cmpi .slt a 50000#32) = 1#1) :
    a.toNat < 50000 := by
  obtain ⟨h0, h1⟩ := IntOp.andi_eq_one.1 h
  rw [IntOp.cmpi_sge] at h0
  rw [IntOp.cmpi_slt] at h1
  rw [show (0#32 : BitVec 32).toInt = 0 from by decide] at h0
  rw [show (50000#32 : BitVec 32).toInt = 50000 from by decide] at h1
  rw [BitVec.toInt_eq_toNat_cond] at h0 h1
  split at h0 <;> omega

/-- Every node index of a per-edge index vector lies in `[0, 50000)` (as an unsigned word below 50000, hence also
    non-negative as a signed one). -/
def InRange (idx : IVec S600000 32) : Prop := ∀ i : S600000.Idx, (idx i).toNat < 50000

/-- The guarded gather as the kernel's program spells it: the wrapped index tested against `0` and `49999`, the
    test reduced along the index vector's one column, the gathered row kept where it passes and a NaN pattern elsewhere. -/
def takeRows (x : FVec F S50000x128 .f32) (idx : IVec S600000 32) : FVec F S600000x128 .f32 :=
  select
    (broadcastInDim S600000x128 ![0] bcast_S600000_S600000x128_0
      (Host.reduce IntOp.andi
        (andi (cmpi .sge (Cert.Spec.wrapIdx idx) (broadcastInDim S600000x1 ![] bcast_S_S600000x1 (constantI S_ 32 0#32)))
          (cmpi .sle (Cert.Spec.wrapIdx idx)
            (broadcastInDim S600000x1 ![0, 1] bcast_S1x1_S600000x1_0_1 (broadcastInDim S1x1 ![1] bcast_S1_S1x1_1 (constantI S1 32 49999#32)))))
        (constantI S_ 1 1#1) reducesTo_S600000x1_S600000_d1 h_S_))
    (Host.gather gather_S50000x128_S600000x1_S600000x128_1_0_n_n_0_1_1128 x (Cert.Spec.wrapIdx idx))
    (broadcastInDim S600000x128 ![] bcast_S_S600000x128 (constant S_ .f32 0x7FC00000#32))

/-- In range, the guard never fires: the guarded gather is the plain one. -/
theorem takeRows_eq (x : FVec F S50000x128 .f32) (idx : IVec S600000 32) (h : InRange idx) :
    takeRows x idx = Cert.Spec.gatherRows x idx := by
  -- the wrapped index is the index itself, hence below 50000
  have hW : ∀ i, (Cert.Spec.wrapIdx idx i).toNat < 50000 := fun i => by
    show (Scalar.select (IntOp.cmpi .slt (idx _) 0#32) (IntOp.addi (idx _) 50000#32) (idx _)).toNat < 50000
    rw [wrap_word _ (h _)]
    exact h _
  -- so every entry of the test is 1, and so is its reduction along the one column
  have hR := reduce_andi_one
    (andi (cmpi .sge (Cert.Spec.wrapIdx idx) (broadcastInDim S600000x1 ![] bcast_S_S600000x1 (constantI S_ 32 0#32)))
      (cmpi .sle (Cert.Spec.wrapIdx idx)
        (broadcastInDim S600000x1 ![0, 1] bcast_S1x1_S600000x1_0_1 (broadcastInDim S1x1 ![1] bcast_S1_S1x1_1 (constantI S1 32 49999#32)))))
    (constantI S_ 1 1#1) reducesTo_S600000x1_S600000_d1 h_S_ (fun i => guard_word _ (hW i)) (fun _ => rfl)
  funext j
  unfold takeRows Cert.Spec.gatherRows
  rw [ValueIdx.select_apply, bcast_of_const _ _ _ _ hR, ValueIdx.select_one]
  rfl

/-- The precondition's last conjunct, read: every entry of the edge list lies in `[0, 50000)`, so both its rows are in
    range. -/
theorem edges_inRange [Cert.Pre_finite_inputs.Facts] (a0 : FVec Ideal S50000x256 .f32) (a1 : IVec S2x600000 32) (a2 : FVec Ideal S256x128 .f32)
    (a3 : FVec Ideal S128 .f32) (a4 : FVec Ideal S3x128x128 .f32) (a5 : FVec Ideal S3x128 .f32) (a6 : FVec Ideal S3x128x128 .f32)
    (a7 : FVec Ideal S256x32 .f32) (a8 : FVec Ideal S32 .f32)
    (h : Cert.Pre_finite_inputs.fn (F := Ideal) a0 a1 a2 a3 a4 a5 a6 a7 a8 = fun _ => 1#1) :
    InRange (Cert.Spec.srcOf a1) ∧ InRange (Cert.Spec.dstOf a1) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, Cert.Pre_finite_inputs.fn_part2] at h0
  -- the last conjunct: the test's reduction over both axes is 1, so every entry of the test is
  have hall : ∀ k, (a1 k).toNat < 50000 := fun k =>
    word_lt_of_guard _ (Host.reduce_andi_all _ _ _ _ _ (IntOp.andi_eq_one.1 h0).2 k)
  -- a row of the edge list, flattened, reads the edge list at some index
  exact ⟨fun i => hall _, fun i => hall _⟩

/-- A bias vector reshaped to one row is the vector broadcast along a new leading axis. -/
theorem rowOf128_eq (b : FVec F S128 .f32) (h : S128.ShapeCasts S1x128) : shapeCast S1x128 b h = Cert.Spec.rowOf128 b := by
  funext j
  obtain ⟨u, i, rfl⟩ : ∃ (u : Fin 1) (i : Fin 128), j = ValueIdx.ix2 u i := ⟨_, _, ValueIdx.eq_ix2 j⟩
  refine (ValueIdx.shapeCast_a_1a_apply b h u i).trans ?_
  unfold Cert.Spec.rowOf128
  simp only [broadcastInDim]
  congr 1
  funext a
  have ha : a = 0 := Subsingleton.elim _ _
  subst ha
  apply Fin.ext
  split
  · next h1 => change 128 = 1 at h1; omega
  · rfl

theorem rowOf32_eq (b : FVec F S32 .f32) (h : S32.ShapeCasts S1x32) : shapeCast S1x32 b h = Cert.Spec.rowOf32 b := by
  funext j
  obtain ⟨u, i, rfl⟩ : ∃ (u : Fin 1) (i : Fin 32), j = ValueIdx.ix2 u i := ⟨_, _, ValueIdx.eq_ix2 j⟩
  refine (ValueIdx.shapeCast_a_1a_apply b h u i).trans ?_
  unfold Cert.Spec.rowOf32
  simp only [broadcastInDim]
  congr 1
  funext a
  have ha : a = 0 := Subsingleton.elim _ _
  subst ha
  apply Fin.ext
  split
  · next h1 => change 32 = 1 at h1; omega
  · rfl

end Cert.KernelIdeal.TakeRows

end
-- ==== Proof.Stretches.lean ====
/-
  What the stretches of whole-array operations between the matrix regions compute, each read once at arbitrary entry
  contents `W`: a guarded gather of the node features at one row of the edge list, the segment sum of the gathered
  rows, and the two gathered endpoint rows laid side by side. A buffer a stretch does not write keeps its contents.
-/
import proofs.«416630_j84997402788219_1_alg».proof.Proof.Gen.KernelIdeal.Launch
import proofs.«416630_j84997402788219_1_alg».proof.Proof.Gen.ReferenceIdeal
import proofs.«416630_j84997402788219_1_alg».proof.Proof.Spec
import proofs.«416630_j84997402788219_1_alg».proof.Proof.TakeRows
import Idealize.ShloMosaic.Lib.StableHlo.Run

set_option maxRecDepth 16384
set_option maxHeartbeats 2000000

noncomputable section

namespace Cert.KernelIdeal.Stretches

open Idealize.ShloMosaic Idealize.ShloMosaic.TcCoe Idealize.ShloMosaic.StableHlo Idealize.SL.Sem
open Cert.KernelIdeal Cert.KernelIdeal.Gen Cert.KernelIdeal.TakeRows

variable (W : Valuation τ sig (Elt Ideal))

/-! ## The guarded gathers -/

/-- A cast along an equation between one type and itself does nothing. Stated as an equation to rewrite with, so that
    removing such casts from a long term is a chain of small rewriting steps and never one comparison of the whole
    term with its cast-free form (which would open a reduction over all 600000 edges). -/
theorem cast_self {α : Sort _} (h : α = α) (a : α) : cast h a = a := by rw [cast_eq]

/-- The gather before layer 1: the embedded features at the edges' source nodes. -/
theorem take1 : StableHlo.after hostOps1 W (Proc.devRef .tc main_v6)
    = takeRows (F := Ideal) (W (Proc.devRef .tc main_v5)) (W (Proc.devRef .tc main_v1)) := by
  after_results
  simp only [cast_self]
  rfl

/-- The gather before layer 2: layer 1's features at the edges' source nodes. -/
theorem take2 : StableHlo.after hostOps2 W (Proc.devRef .tc main_v18)
    = takeRows (F := Ideal) (W (Proc.devRef .tc main_v17)) (W (Proc.devRef .tc main_v1)) := by
  after_results
  simp only [cast_self]
  rfl

/-- The gather before layer 3: layer 2's features at the edges' source nodes. -/
theorem take3 : StableHlo.after hostOps3 W (Proc.devRef .tc main_v30)
    = takeRows (F := Ideal) (W (Proc.devRef .tc main_v29)) (W (Proc.devRef .tc main_v1)) := by
  after_results
  simp only [cast_self]
  rfl

/-- The head's first gather: the last features at the edges' source nodes. -/
theorem take4 : StableHlo.after hostOps4 W (Proc.devRef .tc main_v42)
    = takeRows (F := Ideal) (W (Proc.devRef .tc main_v41)) (W (Proc.devRef .tc main_v1)) := by
  after_results
  simp only [cast_self]
  rfl

/-- The head's second gather: the last features at the edges' destination nodes. -/
theorem take5 : StableHlo.after hostOps4_1 W (Proc.devRef .tc main_v43)
    = takeRows (F := Ideal) (W (Proc.devRef .tc main_v41)) (W (Proc.devRef .tc main_v3)) := by
  after_results
  simp only [cast_self]
  rfl

/-! ## What a gather's stretch leaves alone -/

theorem keep1_dst : StableHlo.after hostOps1 W (Proc.devRef .tc main_v3) = W (Proc.devRef .tc main_v3) := by
  after_results <;> rfl
theorem keep2_dst : StableHlo.after hostOps2 W (Proc.devRef .tc main_v3) = W (Proc.devRef .tc main_v3) := by
  after_results <;> rfl
theorem keep3_dst : StableHlo.after hostOps3 W (Proc.devRef .tc main_v3) = W (Proc.devRef .tc main_v3) := by
  after_results <;> rfl
theorem keep4_dst : StableHlo.after hostOps4 W (Proc.devRef .tc main_v3) = W (Proc.devRef .tc main_v3) := by
  after_results <;> rfl
theorem keep4_feat : StableHlo.after hostOps4 W (Proc.devRef .tc main_v41) = W (Proc.devRef .tc main_v41) := by
  after_results <;> rfl
theorem keep5_gathered : StableHlo.after hostOps4_1 W (Proc.devRef .tc main_v42) = W (Proc.devRef .tc main_v42) := by
  after_results <;> rfl

/-! ## The segment sums and the edge features -/

/-- The stretch before layer 1's region: the gathered rows summed into their destination nodes, from zero. -/
theorem agg1 : StableHlo.after hostOps1_1 W (Proc.devRef .tc main_v9)
    = Cert.Spec.segSum (F := Ideal) (W (Proc.devRef .tc main_v3)) (W (Proc.devRef .tc main_v6)) := by
  after_results
  rfl

/-- The stretch before layer 2's region: the gathered rows summed into their destination nodes, from zero. -/
theorem agg2 : StableHlo.after hostOps2_1 W (Proc.devRef .tc main_v21)
    = Cert.Spec.segSum (F := Ideal) (W (Proc.devRef .tc main_v3)) (W (Proc.devRef .tc main_v18)) := by
  after_results
  rfl

/-- The stretch before layer 3's region: the gathered rows summed into their destination nodes, from zero. -/
theorem agg3 : StableHlo.after hostOps3_1 W (Proc.devRef .tc main_v33)
    = Cert.Spec.segSum (F := Ideal) (W (Proc.devRef .tc main_v3)) (W (Proc.devRef .tc main_v30)) := by
  after_results
  rfl

/-- The last stretch: the two gathered endpoint rows of every edge laid side by side. -/
theorem sideBySide : StableHlo.after hostOps4_2 W (Proc.devRef .tc main_v44)
    = Cert.Spec.edgeFeat (F := Ideal) (W (Proc.devRef .tc main_v42)) (W (Proc.devRef .tc main_v43)) := by
  after_results
  rfl

end Cert.KernelIdeal.Stretches

end
-- ==== Proof.EmbRegion.lean ====
/-
  The embedding region: after its ten grid points the output array is `max(X·W + b, 0)` of the three arrays the
  region found, as one whole-array function.
-/
import proofs.«416630_j84997402788219_1_alg».proof.Proof.Gen.KernelIdeal.Frame
import proofs.«416630_j84997402788219_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EmbRegion

open Idealize.ShloMosaic Idealize.ShloMosaic.TcCoe Idealize.SL.Sem
open Idealize.ShloMosaic.Pipeline (Dat Cfg Window)
open Cert.KernelIdeal Cert.KernelIdeal.Gen

open Idealize.ShloMosaic.ValueIdx

section Entries

variable [Cert.ReferenceIdeal.Facts₀]

/-! ## The block product read at an entry -/

theorem blkLhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem blkLhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem blkRhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem blkRhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A row block times the weight matrix, accumulated from zero: entry (p, q) is the sum over k of a(p,k)·b(k,q). -/
theorem blkProd_apply (a : FVec Ideal S5000x256 .bf16) (b : FVec Ideal S256x128 .bf16) (p : Fin 5000) (q : Fin 128) :
    matmul (F := Ideal) dot_S5000x256_S256x128_S5000x128_1_0_0_1_n_n none a b (constant (F := Ideal) S5000x128 .f32 0x00000000#32) (ix2 p q)
      = ∑ k : Fin 256, a (ix2 p k) * b (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun ax => Fin.ext (by
    match ax with
    | ⟨0, _⟩ => exact blkLhs_0 _ _
    | ⟨1, _⟩ => exact (blkLhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun ax => Fin.ext (by
    match ax with
    | ⟨0, _⟩ => exact (blkRhs_0 _ _).trans hk
    | ⟨1, _⟩ => exact blkRhs_1 _ _)
  rw [el, er]

/-- The body's value at entry (p, q) of a block: max(Σ_k x(p,k)·w(k,q) + b(0,q), 0). -/
theorem pay_apply (x0 : Vec Ideal S5000x256 .f32) (x1 : Vec Ideal S256x128 .f32) (x2 : Vec Ideal S1x128 .f32)
    (p : Fin 5000) (q : Fin 128) :
    k0_pay1 (F := Ideal) x0 x1 x2 (ix2 p q)
      = max ((∑ k : Fin 256, x0 (ix2 p k) * x1 (ix2 k q)) + x2 (ix2 (0 : Fin 1) q)) (Ideal.ofBits .f32 0x00000000#32) := by
  unfold k0_pay1
  refine congrArg₂ max (congrArg₂ (· + ·) ?_ ?_) rfl
  · exact blkProd_apply _ _ p q
  · refine (broadcastTo_1b_ab_apply _ _ p q).trans ?_
    rw [shapeCast_self]

/-! ## The specification read at an entry -/

theorem rowLhs_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch from (by decide : ¬(0 : Fin 2) ∈ ([] : List (Fin 2)))), dif_pos (show (0 : Fin Cert.ReferenceIdeal.S50000x256.rank) ∈ Cert.ReferenceIdeal.dot_S50000x256_S256x128_S50000x128_1_0_0_1_n_n.lhsNonContracting from (by decide : (0 : Fin 2) ∈ ([0] : List (Fin 2))))]
  rfl
theorem rowLhs_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, Nat.one_pos⟩).val :=
  Cert.ReferenceIdeal.dot_S50000x256_S256x128_S50000x128_1_0_0_1_n_n.lhsIdx_val_of_single rfl i q
theorem rowRhs_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, Nat.one_pos⟩).val :=
  Cert.ReferenceIdeal.dot_S50000x256_S256x128_S50000x128_1_0_0_1_n_n.rhsIdx_val_of_single rfl i q
theorem rowRhs_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch from (by decide : ¬(1 : Fin 2) ∈ ([] : List (Fin 2)))), dif_pos (show (1 : Fin Cert.ReferenceIdeal.S256x128.rank) ∈ Cert.ReferenceIdeal.dot_S50000x256_S256x128_S50000x128_1_0_0_1_n_n.rhsNonContracting from (by decide : (1 : Fin 2) ∈ ([1] : List (Fin 2))))]
  rfl

/-- The whole product X·W at entry (r, q): the sum over k of X(r,k)·W(k,q). -/
theorem rowProd_apply (X : FVec Ideal Cert.ReferenceIdeal.S50000x256 .f32) (W : FVec Ideal Cert.ReferenceIdeal.S256x128 .f32) (r : Fin 50000) (q : Fin 128) :
    Host.dotGeneral (F := Ideal) Cert.ReferenceIdeal.dot_S50000x256_S256x128_S50000x128_1_0_0_1_n_n none X W (ix2 r q)
      = ∑ k : Fin 256, X (ix2 r k) * W (ix2 k q) := by
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 r q) ((contrEquiv1 Cert.ReferenceIdeal.dot_S50000x256_S256x128_S50000x128_1_0_0_1_n_n 256 rfl rfl).symm k) = ix2 r k := funext fun ax => Fin.ext (by
    match ax with
    | ⟨0, _⟩ => exact rowLhs_0 _ _
    | ⟨1, _⟩ => exact (rowLhs_1 _ _).trans hk)
  have er : Cert.ReferenceIdeal.dot_S50000x256_S256x128_S50000x128_1_0_0_1_n_n.rhsIdx (ix2 r q) ((contrEquiv1 Cert.ReferenceIdeal.dot_S50000x256_S256x128_S50000x128_1_0_0_1_n_n 256 rfl rfl).symm k) = ix2 k q := funext fun ax => Fin.ext (by
    match ax with
    | ⟨0, _⟩ => exact (rowRhs_0 _ _).trans hk
    | ⟨1, _⟩ => exact rowRhs_1 _ _)
  rw [el, er]

/-- The embedding at entry (r, q): max(Σ_k X(r,k)·W(k,q) + b(0,q), 0). -/
theorem embRow_apply (X : FVec Ideal Cert.ReferenceIdeal.S50000x256 .f32) (W : FVec Ideal Cert.ReferenceIdeal.S256x128 .f32)
    (B : FVec Ideal Cert.ReferenceIdeal.S1x128 .f32) (r : Fin 50000) (q : Fin 128) :
    Cert.Spec.embRow (F := Ideal) X W B (ix2 r q)
      = max ((∑ k : Fin 256, X (ix2 r k) * W (ix2 k q)) + B (ix2 (0 : Fin 1) q)) (Ideal.ofBits .f32 0x00000000#32) := by
  unfold Cert.Spec.embRow Cert.Spec.relu
  refine congrArg₂ max (congrArg₂ (· + ·) ?_ ?_) ?_
  · exact rowProd_apply X W r q
  · exact broadcastInDim_apply _ _ B (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])
  · exact broadcastInDim_apply _ _ (constant (F := Ideal) Cert.ReferenceIdeal.S_ .f32 0x00000000#32) (ix2 r q) (fun a => a.elim0) (fun a => a.elim0)

/-- A block entry against the array entry it stands for: the same sum once the block's row, the weights and the
    bias row are the arrays' own entries. -/
theorem blk_entry (X : FVec Ideal Cert.ReferenceIdeal.S50000x256 .f32) (W : FVec Ideal Cert.ReferenceIdeal.S256x128 .f32)
    (B : FVec Ideal Cert.ReferenceIdeal.S1x128 .f32)
    (x0 : Vec Ideal S5000x256 .f32) (x1 : Vec Ideal S256x128 .f32) (x2 : Vec Ideal S1x128 .f32)
    (p : Fin 5000) (q : Fin 128) (r : Fin 50000)
    (h0 : ∀ k : Fin 256, x0 (ix2 p k) = X (ix2 r k))
    (h1 : ∀ k : Fin 256, x1 (ix2 k q) = W (ix2 k q))
    (h2 : x2 (ix2 (0 : Fin 1) q) = B (ix2 (0 : Fin 1) q)) :
    k0_pay1 (F := Ideal) x0 x1 x2 (ix2 p q) = Cert.Spec.embRow (F := Ideal) X W B (ix2 r q) := by
  rw [pay_apply, embRow_apply, h2]
  simp only [h0, h1]

/-! ## From blocks to the array -/

theorem hz : (![0, 0] : Fin 2 → Nat) = fun _ => 0 := funext fun a => by fin_cases a <;> rfl

/-- The block index of every window at grid point t: the row-blocked windows sit at block row t, the weights and
    the bias row are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Row r of the output array lies in the block of point r / 5000, which is written back. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, e30, e31⟩ := idx_facts ⟨(i 0).val / 5000, hlt⟩
  have e30' : win0_3.index ⟨(i 0).val / 5000, hlt⟩ (0 : Fin 2) = (i 0).val / 5000 := e30
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30']; omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e31]; omega

section
variable (V : (c : Dev nD) → (b : Ref sig .tc) → Buf (Elt Ideal) ((c : Thread nD τ).loc b))

/-- The feature window's block at point t is rows 5000·t … 5000·t + 4999 of the feature array. -/
theorem xblk_apply (c : Dev nD) (t : Fin cfg0.N) (x : S5000x256.Idx) (k : S50000x256.Idx)
    (hk0 : (k 0).val = 5000 * t.val + (x 0).val) (hk1 : (k 1).val = (x 1).val) :
    (iblk0 (F := Ideal) V c 0 t : Vec Ideal S5000x256 .f32) x = (V c main_arg0 : S50000x256.Idx → Elt Ideal .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 256 + 1 * (x 1).val = (k 1).val; rw [e1, hk1]; omega

/-- The weight window's block is the weight matrix. -/
theorem wblk_apply (c : Dev nD) (t : Fin cfg0.N) (x : S256x128.Idx) :
    (iblk0 (F := Ideal) V c 1 t : Vec Ideal S256x128 .f32) x = (V c main_arg2 : S256x128.Idx → Elt Ideal .f32) x := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 128 + 1 * (x 1).val = (x 1).val; rw [e1]; omega

/-- The bias window's block is the bias row. -/
theorem bblk_apply (c : Dev nD) (t : Fin cfg0.N) (x : S1x128.Idx) :
    (iblk0 (F := Ideal) V c 2 t : Vec Ideal S1x128 .f32) x = (V c main_v4 : S1x128.Idx → Elt Ideal .f32) x := by
  obtain ⟨-, -, -, -, e0, e1, -⟩ := idx_facts t
  unfold iblk0
  rw [View.read_apply]
  show V c main_v4 _ = V c main_v4 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- What point t writes back is block t of the embedding of the arrays the region was entered with. -/
theorem flushed_eq (c : Dev nD) (t : Fin cfg0.N) :
    (dat0 (F := Ideal) V c).flushed 3 t
      = ((cfg0.win 3).blk t).view.read (Elt Ideal) (Cert.Spec.embRow (F := Ideal) (V c main_arg0) (V c main_arg2) (V c main_v4)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  obtain ⟨-, -, -, -, -, -, e30, e31⟩ := idx_facts t
  funext j
  have hj0 : (j 0).val < 5000 := (j 0).isLt
  have hj1 : (j 1).val < 128 := (j 1).isLt
  have ht : t.val < 10 := t.isLt
  have ej : j = ix2 (⟨(j 0).val, hj0⟩ : Fin 5000) (⟨(j 1).val, hj1⟩ : Fin 128) := by
    funext a
    match a with
    | ⟨0, _⟩ => rfl
    | ⟨1, _⟩ => rfl
  have ei : ((cfg0.win 3).blk t).view.emb j
      = ix2 (⟨5000 * t.val + (j 0).val, by omega⟩ : Fin 50000) (⟨(j 1).val, hj1⟩ : Fin 128) := by
    funext a
    apply Fin.ext
    match a with
    | ⟨0, _⟩ => show win0_3.index t (0 : Fin 2) * 5000 + 1 * (j 0).val = 5000 * t.val + (j 0).val; rw [e30]; omega
    | ⟨1, _⟩ => show win0_3.index t (1 : Fin 2) * 128 + 1 * (j 1).val = (j 1).val; rw [e31]; omega
  show k0_pay1 (F := Ideal) (iblk0 V c 0 t) (iblk0 V c 1 t) (iblk0 V c 2 t) j
    = Cert.Spec.embRow (F := Ideal) (V c main_arg0) (V c main_arg2) (V c main_v4) (((cfg0.win 3).blk t).view.emb j)
  refine ((congrArg (k0_pay1 (F := Ideal) (iblk0 V c 0 t) (iblk0 V c 1 t) (iblk0 V c 2 t)) ej).trans ?_).trans
    (congrArg (Cert.Spec.embRow (F := Ideal) (V c main_arg0) (V c main_arg2) (V c main_v4)) ei).symm
  exact blk_entry (V c main_arg0) (V c main_arg2) (V c main_v4) (iblk0 V c 0 t) (iblk0 V c 1 t) (iblk0 V c 2 t)
    ⟨(j 0).val, hj0⟩ ⟨(j 1).val, hj1⟩ ⟨5000 * t.val + (j 0).val, by omega⟩
    (fun k => xblk_apply V c t (ix2 (⟨(j 0).val, hj0⟩ : Fin 5000) k) (ix2 (⟨5000 * t.val + (j 0).val, by omega⟩ : Fin 50000) k) rfl rfl)
    (fun k => wblk_apply V c t (ix2 k (⟨(j 1).val, hj1⟩ : Fin 128)))
    (bblk_apply V c t (ix2 (0 : Fin 1) (⟨(j 1).val, hj1⟩ : Fin 128)))

end

end Entries

variable [Cert.KernelIdeal.Facts] [Cert.ReferenceIdeal.Facts₀]

/-- The array the embedding region leaves: `Spec.embRow` of the arrays it was entered with. -/
theorem value (V : (c : Dev nD) → (b : Ref sig .tc) → Buf (Elt Ideal) ((c : Thread nD τ).loc b)) (c : Dev nD) :
    (dat0 (F := Ideal) V c).arrAt 3 cfg0.N = Cert.Spec.embRow (F := Ideal) (V c main_arg0) (V c main_arg2) (V c main_v4) := by
  exact (dat0 (F := Ideal) V c).arrAt_eq_of_cover 3 (Cert.Spec.embRow (F := Ideal) (V c main_arg0) (V c main_arg2) (V c main_v4))
    (fun t _ => flushed_eq V c t) cover

end Cert.KernelIdeal.EmbRegion

end
-- ==== Proof.ConvRegion1.lean ====
/-
  The first graph-convolution region: after its ten grid points the output array is
  `max((agg·W_rel + b_rel) + x·W_root, 0)` of the five arrays the region found, as one whole-array function.
-/
import proofs.«416630_j84997402788219_1_alg».proof.Proof.Gen.KernelIdeal.Frame
import proofs.«416630_j84997402788219_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.ConvRegion1

open Idealize.ShloMosaic Idealize.ShloMosaic.TcCoe Idealize.SL.Sem
open Idealize.ShloMosaic.Pipeline (Dat Cfg Window)
open Cert.KernelIdeal Cert.KernelIdeal.Gen

section Entries

open Idealize.ShloMosaic.ValueIdx

variable [Cert.ReferenceIdeal.Facts₀]

/-! ## One entry of a block product

  A row block `[5000, 128]` times a weight matrix `[128, 128]`, contracted over the block's columns and the matrix's
  rows: entry `(p, q)` is `∑ k, x (p, k) * w (k, q)`. The four lemmas say which entry of each factor the product reads
  on each axis; the fifth re-indexes the sum over the one contracted axis by `k : Fin 128`. -/

/-- The left factor is read at the output's row. -/
theorem blockLeft_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left factor's column is the contracted index. -/
theorem blockLeft_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row is the contracted index. -/
theorem blockRight_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right factor is read at the output's column. -/
theorem blockRight_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product accumulated from zero, at row `p` and column `q`: the left factor's row `p` against the right
    factor's column `q`. -/
theorem blockProduct_apply (x : FVec Ideal S5000x128 .bf16) (w : FVec Ideal S128x128 .bf16) (p : Fin 5000) (q : Fin 128) :
    FloatOps.matmul dot_S5000x128_S128x128_S5000x128_1_0_0_1_n_n none x w (constant S5000x128 .f32 0x00000000#32) (ix2 p q)
      = ∑ k : Fin 128, x (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockLeft_row _ _
    | ⟨1, _⟩ => exact (blockLeft_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockRight_contr _ _).trans hk
    | ⟨1, _⟩ => exact blockRight_col _ _)
  rw [el, er]

/-- THE BODY AT AN ENTRY. Rounding the factors to bf16 changes nothing on the extended reals, the reshapes are to the
    same shape, and the bias row is repeated down the rows: entry `(p, q)` of what the body stores is
    `max((agg·W_rel + x·W_root) + b, 0)` read at `(p, q)`, the bias at `(0, q)`. -/
theorem body_apply (agg x : Vec Ideal S5000x128 .f32) (wrel wroot : Vec Ideal S128x128 .f32) (b : Vec Ideal S1x128 .f32)
    (p : Fin 5000) (q : Fin 128) :
    k1_pay1 (F := Ideal) agg x wrel wroot b (ix2 p q)
      = max (((∑ k : Fin 128, agg (ix2 p k) * wrel (ix2 k q)) + (∑ k : Fin 128, x (ix2 p k) * wroot (ix2 k q)))
          + b (ix2 (0 : Fin 1) q)) (Ideal.ofBits .f32 0x00000000#32) := by
  unfold k1_pay1
  simp only [shapeCast_self]
  rw [maximumf_apply, addf_apply, addf_apply, broadcast_apply, broadcastTo_1b_ab_apply]
  simp only [matmul]
  rw [blockProduct_apply, blockProduct_apply]
  rfl

/-! ## One entry of the specification

  The same reading of `Spec.convRow`: the whole-array products `[50000, 128] · [128, 128]` at an entry, the bias row
  repeated down the rows, the zero scalar repeated everywhere. -/

/-- The left factor is read at the output's row. -/
theorem wholeLeft_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch from List.not_mem_nil),
    dif_pos (show (0 : Fin Cert.ReferenceIdeal.S50000x128.rank) ∈ Cert.ReferenceIdeal.dot_S50000x128_S128x128_S50000x128_1_0_0_1_n_n.lhsNonContracting from List.mem_singleton_self _)]
  rfl
/-- The left factor's column is the contracted index. -/
theorem wholeLeft_contr (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, Nat.zero_lt_one⟩).val :=
  Cert.ReferenceIdeal.dot_S50000x128_S128x128_S50000x128_1_0_0_1_n_n.lhsIdx_val_of_single rfl i q
/-- The right factor's row is the contracted index. -/
theorem wholeRight_contr (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, Nat.zero_lt_one⟩).val :=
  Cert.ReferenceIdeal.dot_S50000x128_S128x128_S50000x128_1_0_0_1_n_n.rhsIdx_val_of_single rfl i q
/-- The right factor is read at the output's column. -/
theorem wholeRight_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch from List.not_mem_nil),
    dif_pos (show (1 : Fin Cert.ReferenceIdeal.S128x128.rank) ∈ Cert.ReferenceIdeal.dot_S50000x128_S128x128_S50000x128_1_0_0_1_n_n.rhsNonContracting from List.mem_singleton_self _)]
  rfl

/-- The whole-array product at row `r` and column `q`: row `r` of the left factor against column `q` of the right. -/
theorem wholeProduct_apply (x : FVec Ideal Cert.ReferenceIdeal.S50000x128 .f32) (w : FVec Ideal Cert.ReferenceIdeal.S128x128 .f32) (r : Fin 50000) (q : Fin 128) :
    Host.dotGeneral Cert.ReferenceIdeal.dot_S50000x128_S128x128_S50000x128_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact wholeLeft_row _ _
    | ⟨1, _⟩ => exact (wholeLeft_contr _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (wholeRight_contr _ _).trans hk
    | ⟨1, _⟩ => exact wholeRight_col _ _)
  rw [el, er]

/-- THE SPECIFICATION AT AN ENTRY: `max((agg·W_rel + b) + x·W_root, 0)` read at `(r, q)`, the bias at `(0, q)`. -/
theorem convRow_apply (agg x : FVec Ideal Cert.ReferenceIdeal.S50000x128 .f32) (relw rootw : FVec Ideal Cert.ReferenceIdeal.S128x128 .f32)
    (relb : FVec Ideal Cert.ReferenceIdeal.S1x128 .f32) (r : Fin 50000) (q : Fin 128) :
    Cert.Spec.convRow (F := Ideal) agg x relw relb rootw (ix2 r q)
      = max (((∑ k : Fin 128, agg (ix2 r k) * relw (ix2 k q)) + relb (ix2 (0 : Fin 1) q))
          + (∑ k : Fin 128, x (ix2 r k) * rootw (ix2 k q))) (Ideal.ofBits .f32 0x00000000#32) := by
  unfold Cert.Spec.convRow Cert.Spec.relu
  rw [maximumf_apply, addf_apply, addf_apply, broadcastInDim_scalar_apply, broadcastInDim_oneRow_apply, constant_apply,
    wholeProduct_apply, wholeProduct_apply]

/-! ## The blocks the ten points read and write

  Point `t` reads rows `5000 t … 5000 t + 4999` of the aggregated messages and of the node features, the two weight
  matrices and the bias row whole, and writes the same rows of the output. -/

theorem hz : (![0, 0] : Fin 2 → Nat) = fun _ => 0 := funext fun a => by fin_cases a <;> rfl

/-- The block index of every window at every point: the point on the row axis for the three row-blocked arrays,
    zero everywhere else (decided over the ten points). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Local row `p` of the aggregated messages' block at point `t` is the array's row `5000 t + p`. -/
theorem aggBlock_apply (V : (c : Dev nD) → (b : Ref sig .tc) → Buf (Elt Ideal) ((c : Thread nD τ).loc b)) (c : Dev nD) (t : Fin cfg1.N) (p : Fin 5000) (k : Fin 128) (r : Fin 50000)
    (hr : r.val = t.val * 5000 + p.val) :
    (iblk1 (F := Ideal) V c 0 t : Vec Ideal S5000x128 .f32) (ix2 p k) = (V c main_v9 : S50000x128.Idx → EReal) (ix2 r k) := by
  obtain ⟨e0, e1, -⟩ := idx_facts t
  unfold iblk1
  rw [View.read_apply]
  show V c main_v9 _ = V c main_v9 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Local row `p` of the node features' block at point `t` is the array's row `5000 t + p`. -/
theorem featBlock_apply (V : (c : Dev nD) → (b : Ref sig .tc) → Buf (Elt Ideal) ((c : Thread nD τ).loc b)) (c : Dev nD) (t : Fin cfg1.N) (p : Fin 5000) (k : Fin 128) (r : Fin 50000)
    (hr : r.val = t.val * 5000 + p.val) :
    (iblk1 (F := Ideal) V c 1 t : Vec Ideal S5000x128 .f32) (ix2 p k) = (V c main_v5 : S50000x128.Idx → EReal) (ix2 r k) := by
  obtain ⟨-, -, e0, e1, -⟩ := idx_facts t
  unfold iblk1
  rw [View.read_apply]
  show V c main_v5 _ = V c main_v5 _
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- The relation weights' block is the whole matrix at every point. -/
theorem relWeight_apply (V : (c : Dev nD) → (b : Ref sig .tc) → Buf (Elt Ideal) ((c : Thread nD τ).loc b)) (c : Dev nD) (t : Fin cfg1.N) (k q : Fin 128) :
    (iblk1 (F := Ideal) V c 2 t : Vec Ideal S128x128 .f32) (ix2 k q) = (V c main_v11 : S128x128.Idx → EReal) (ix2 k q) := by
  obtain ⟨-, -, -, -, e0, e1, -⟩ := idx_facts t
  unfold iblk1
  rw [View.read_apply]
  show V c main_v11 _ = V c main_v11 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

/-- The bias row's block is the whole row at every point. -/
theorem biasRow_apply (V : (c : Dev nD) → (b : Ref sig .tc) → Buf (Elt Ideal) ((c : Thread nD τ).loc b)) (c : Dev nD) (t : Fin cfg1.N) (q : Fin 128) :
    (iblk1 (F := Ideal) V c 3 t : Vec Ideal S1x128 .f32) (ix2 (0 : Fin 1) q) = (V c main_v16 : S1x128.Idx → EReal) (ix2 (0 : Fin 1) q) := by
  obtain ⟨-, -, -, -, -, -, e0, e1, -⟩ := idx_facts t
  unfold iblk1
  rw [View.read_apply]
  show V c main_v16 _ = V c main_v16 _
  congr 1
  funext a
  apply Fin.ext
  match a with
  | ⟨0, _⟩ => show win1_3.index t (0 : Fin 2) * 1 + 1 * 0 = 0; omega
  | ⟨1, _⟩ => show win1_3.index t (1 : Fin 2) * 128 + 1 * q.val = q.val; omega

/-- The root weights' block is the whole matrix at every point. -/
theorem rootWeight_apply (V : (c : Dev nD) → (b : Ref sig .tc) → Buf (Elt Ideal) ((c : Thread nD τ).loc b)) (c : Dev nD) (t : Fin cfg1.N) (k q : Fin 128) :
    (iblk1 (F := Ideal) V c 4 t : Vec Ideal S128x128 .f32) (ix2 k q) = (V c main_v15 : S128x128.Idx → EReal) (ix2 k q) := by
  obtain ⟨-, -, -, -, -, -, -, -, e0, e1, -⟩ := idx_facts t
  unfold iblk1
  rw [View.read_apply]
  show V c main_v15 _ = V c main_v15 _
  congr 1
  funext a
  apply Fin.ext
  match a with
  | ⟨0, _⟩ => show win1_4.index t (0 : Fin 2) * 128 + 1 * k.val = k.val; omega
  | ⟨1, _⟩ => show win1_4.index t (1 : Fin 2) * 128 + 1 * q.val = q.val; omega

/-- Inside the output's block at point `t`, local row `p` is the array's row `5000 t + p`. -/
theorem outBlock_emb (t : Fin cfg1.N) (p : Fin 5000) (q : Fin 128) (r : Fin 50000) (hr : r.val = t.val * 5000 + p.val) :
    ((cfg1.win 5).blk t).view.emb (ix2 p q) = (ix2 r q : S50000x128.Idx) := by
  obtain ⟨-, -, -, -, -, -, -, -, -, -, e0, e1⟩ := idx_facts t
  funext a
  apply Fin.ext
  match a with
  | ⟨0, _⟩ => show win1_5.index t (0 : Fin 2) * 5000 + 1 * p.val = r.val; omega
  | ⟨1, _⟩ => show win1_5.index t (1 : Fin 2) * 128 + 1 * q.val = q.val; omega

/-! ## From the blocks to the array -/

/-- What the body computes at local row `p`, column `q` of point `t` is the specification's entry at row `5000 t + p`:
    both are the maximum with zero of the same three summands, `(a + c) + b` on one side and `(a + b) + c` on the other;
    addition of extended reals is commutative and associative. -/
theorem blockValue (V : (c : Dev nD) → (b : Ref sig .tc) → Buf (Elt Ideal) ((c : Thread nD τ).loc b)) (c : Dev nD) (t : Fin cfg1.N) (p : Fin 5000) (q : Fin 128) (r : Fin 50000)
    (hr : r.val = t.val * 5000 + p.val) :
    k1_pay1 (F := Ideal) (iblk1 V c 0 t) (iblk1 V c 1 t) (iblk1 V c 2 t) (iblk1 V c 4 t) (iblk1 V c 3 t) (ix2 p q)
      = Cert.Spec.convRow (F := Ideal) (V c main_v9) (V c main_v5) (V c main_v11) (V c main_v16) (V c main_v15) (ix2 r q) := by
  refine (body_apply (iblk1 V c 0 t) (iblk1 V c 1 t) (iblk1 V c 2 t) (iblk1 V c 4 t) (iblk1 V c 3 t) p q).trans ?_
  refine ((convRow_apply (V c main_v9) (V c main_v5) (V c main_v11) (V c main_v15) (V c main_v16) r q).trans ?_).symm
  simp only [aggBlock_apply V c t _ _ r hr, featBlock_apply V c t _ _ r hr, relWeight_apply V c t, rootWeight_apply V c t,
    biasRow_apply V c t]
  rw [add_right_comm]

/-- WHAT POINT `t` WRITES BACK is block `t` of the specification's array. -/
theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (Cert.Spec.convRow (F := Ideal) (V c main_v9) (V c main_v5) (V c main_v11) (V c main_v16) (V c main_v15)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hr : t.val * 5000 + p.val < 50000 := by
    have := t.isLt; have hN : cfg1.N = 10 := N_1; have := p.isLt; omega
  rw [View.read_apply, outBlock_emb t p q ⟨t.val * 5000 + p.val, hr⟩ rfl]
  exact blockValue V c t p q ⟨t.val * 5000 + p.val, hr⟩ rfl

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v17).slice (win1_5.rect t)).set ↔ _
  rw [View.set_slice_whole, Rect.mem_set_unit]
  exact Iff.rfl

/-- Every row of the output array lies in the block of the point `row / 5000`, and every point writes its block back. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the ten points is the specification's function of the arrays the region found: every
    point writes its block of that function, and the ten blocks cover the array. -/
theorem final (V : (c : Dev nD) → (b : Ref sig .tc) → Buf (Elt Ideal) ((c : Thread nD τ).loc b)) (c : Dev nD) :
    (dat1 (F := Ideal) V c).arrAt 5 cfg1.N = Cert.Spec.convRow (F := Ideal) (V c main_v9) (V c main_v5) (V c main_v11) (V c main_v16) (V c main_v15) :=
  (dat1 (F := Ideal) V c).arrAt_eq_of_cover 5 (Cert.Spec.convRow (F := Ideal) (V c main_v9) (V c main_v5) (V c main_v11) (V c main_v16) (V c main_v15)) (fun t _ => flushed_eq V c t) cover

end Entries

variable [Cert.KernelIdeal.Facts] [Cert.ReferenceIdeal.Facts₀]

/-- The array the region leaves: `Spec.convRow` of the arrays it was entered with. -/
theorem value (V : (c : Dev nD) → (b : Ref sig .tc) → Buf (Elt Ideal) ((c : Thread nD τ).loc b)) (c : Dev nD) :
    (dat1 (F := Ideal) V c).arrAt 5 cfg1.N
      = Cert.Spec.convRow (F := Ideal) (V c main_v9) (V c main_v5) (V c main_v11) (V c main_v16) (V c main_v15) := by
  exact final V c

end Cert.KernelIdeal.ConvRegion1

end
-- ==== Proof.ConvRegion2.lean ====
/-
  The second graph-convolution region: after its ten grid points the output array is
  `max((agg·W_rel + b_rel) + x·W_root, 0)` of the five arrays the region found, as one whole-array function.
-/
import proofs.«416630_j84997402788219_1_alg».proof.Proof.Gen.KernelIdeal.Frame
import proofs.«416630_j84997402788219_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.ConvRegion2

open Idealize.ShloMosaic Idealize.ShloMosaic.TcCoe Idealize.SL.Sem
open Idealize.ShloMosaic.Pipeline (Dat Cfg Window)
open Cert.KernelIdeal Cert.KernelIdeal.Gen

section Entries

open Idealize.ShloMosaic.ValueIdx

variable [Cert.ReferenceIdeal.Facts₀]

/-! ## One entry of a block product

  A row block `[5000, 128]` times a weight matrix `[128, 128]`, contracted over the block's columns and the matrix's
  rows: entry `(p, q)` is `∑ k, x (p, k) * w (k, q)`. The four lemmas say which entry of each factor the product reads
  on each axis; the fifth re-indexes the sum over the one contracted axis by `k : Fin 128`. -/

/-- The left factor is read at the output's row. -/
theorem blockLeft_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left factor's column is the contracted index. -/
theorem blockLeft_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row is the contracted index. -/
theorem blockRight_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right factor is read at the output's column. -/
theorem blockRight_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product accumulated from zero, at row `p` and column `q`: the left factor's row `p` against the right
    factor's column `q`. -/
theorem blockProduct_apply (x : FVec Ideal S5000x128 .bf16) (w : FVec Ideal S128x128 .bf16) (p : Fin 5000) (q : Fin 128) :
    FloatOps.matmul dot_S5000x128_S128x128_S5000x128_1_0_0_1_n_n none x w (constant S5000x128 .f32 0x00000000#32) (ix2 p q)
      = ∑ k : Fin 128, x (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockLeft_row _ _
    | ⟨1, _⟩ => exact (blockLeft_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockRight_contr _ _).trans hk
    | ⟨1, _⟩ => exact blockRight_col _ _)
  rw [el, er]

/-- THE BODY AT AN ENTRY. Rounding the factors to bf16 changes nothing on the extended reals, the reshapes are to the
    same shape, and the bias row is repeated down the rows: entry `(p, q)` of what the body stores is
    `max((agg·W_rel + x·W_root) + b, 0)` read at `(p, q)`, the bias at `(0, q)`. -/
theorem body_apply (agg x : Vec Ideal S5000x128 .f32) (wrel wroot : Vec Ideal S128x128 .f32) (b : Vec Ideal S1x128 .f32)
    (p : Fin 5000) (q : Fin 128) :
    k2_pay1 (F := Ideal) agg x wrel wroot b (ix2 p q)
      = max (((∑ k : Fin 128, agg (ix2 p k) * wrel (ix2 k q)) + (∑ k : Fin 128, x (ix2 p k) * wroot (ix2 k q)))
          + b (ix2 (0 : Fin 1) q)) (Ideal.ofBits .f32 0x00000000#32) := by
  unfold k2_pay1
  simp only [shapeCast_self]
  rw [maximumf_apply, addf_apply, addf_apply, broadcast_apply, broadcastTo_1b_ab_apply]
  simp only [matmul]
  rw [blockProduct_apply, blockProduct_apply]
  rfl

/-! ## One entry of the specification

  The same reading of `Spec.convRow`: the whole-array products `[50000, 128] · [128, 128]` at an entry, the bias row
  repeated down the rows, the zero scalar repeated everywhere. -/

/-- The left factor is read at the output's row. -/
theorem wholeLeft_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch from List.not_mem_nil),
    dif_pos (show (0 : Fin Cert.ReferenceIdeal.S50000x128.rank) ∈ Cert.ReferenceIdeal.dot_S50000x128_S128x128_S50000x128_1_0_0_1_n_n.lhsNonContracting from List.mem_singleton_self _)]
  rfl
/-- The left factor's column is the contracted index. -/
theorem wholeLeft_contr (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, Nat.zero_lt_one⟩).val :=
  Cert.ReferenceIdeal.dot_S50000x128_S128x128_S50000x128_1_0_0_1_n_n.lhsIdx_val_of_single rfl i q
/-- The right factor's row is the contracted index. -/
theorem wholeRight_contr (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, Nat.zero_lt_one⟩).val :=
  Cert.ReferenceIdeal.dot_S50000x128_S128x128_S50000x128_1_0_0_1_n_n.rhsIdx_val_of_single rfl i q
/-- The right factor is read at the output's column. -/
theorem wholeRight_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch from List.not_mem_nil),
    dif_pos (show (1 : Fin Cert.ReferenceIdeal.S128x128.rank) ∈ Cert.ReferenceIdeal.dot_S50000x128_S128x128_S50000x128_1_0_0_1_n_n.rhsNonContracting from List.mem_singleton_self _)]
  rfl

/-- The whole-array product at row `r` and column `q`: row `r` of the left factor against column `q` of the right. -/
theorem wholeProduct_apply (x : FVec Ideal Cert.ReferenceIdeal.S50000x128 .f32) (w : FVec Ideal Cert.ReferenceIdeal.S128x128 .f32) (r : Fin 50000) (q : Fin 128) :
    Host.dotGeneral Cert.ReferenceIdeal.dot_S50000x128_S128x128_S50000x128_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact wholeLeft_row _ _
    | ⟨1, _⟩ => exact (wholeLeft_contr _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (wholeRight_contr _ _).trans hk
    | ⟨1, _⟩ => exact wholeRight_col _ _)
  rw [el, er]

/-- THE SPECIFICATION AT AN ENTRY: `max((agg·W_rel + b) + x·W_root, 0)` read at `(r, q)`, the bias at `(0, q)`. -/
theorem convRow_apply (agg x : FVec Ideal Cert.ReferenceIdeal.S50000x128 .f32) (relw rootw : FVec Ideal Cert.ReferenceIdeal.S128x128 .f32)
    (relb : FVec Ideal Cert.ReferenceIdeal.S1x128 .f32) (r : Fin 50000) (q : Fin 128) :
    Cert.Spec.convRow (F := Ideal) agg x relw relb rootw (ix2 r q)
      = max (((∑ k : Fin 128, agg (ix2 r k) * relw (ix2 k q)) + relb (ix2 (0 : Fin 1) q))
          + (∑ k : Fin 128, x (ix2 r k) * rootw (ix2 k q))) (Ideal.ofBits .f32 0x00000000#32) := by
  unfold Cert.Spec.convRow Cert.Spec.relu
  rw [maximumf_apply, addf_apply, addf_apply, broadcastInDim_scalar_apply, broadcastInDim_oneRow_apply, constant_apply,
    wholeProduct_apply, wholeProduct_apply]

/-! ## The blocks the ten points read and write

  Point `t` reads rows `5000 t … 5000 t + 4999` of the aggregated messages and of the node features, the two weight
  matrices and the bias row whole, and writes the same rows of the output. -/

theorem hz : (![0, 0] : Fin 2 → Nat) = fun _ => 0 := funext fun a => by fin_cases a <;> rfl

/-- The block index of every window at every point: the point on the row axis for the three row-blocked arrays,
    zero everywhere else (decided over the ten points). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Local row `p` of the aggregated messages' block at point `t` is the array's row `5000 t + p`. -/
theorem aggBlock_apply (V : (c : Dev nD) → (b : Ref sig .tc) → Buf (Elt Ideal) ((c : Thread nD τ).loc b)) (c : Dev nD) (t : Fin cfg2.N) (p : Fin 5000) (k : Fin 128) (r : Fin 50000)
    (hr : r.val = t.val * 5000 + p.val) :
    (iblk2 (F := Ideal) V c 0 t : Vec Ideal S5000x128 .f32) (ix2 p k) = (V c main_v21 : S50000x128.Idx → EReal) (ix2 r k) := by
  obtain ⟨e0, e1, -⟩ := idx_facts t
  unfold iblk2
  rw [View.read_apply]
  show V c main_v21 _ = V c main_v21 _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- Local row `p` of the node features' block at point `t` is the array's row `5000 t + p`. -/
theorem featBlock_apply (V : (c : Dev nD) → (b : Ref sig .tc) → Buf (Elt Ideal) ((c : Thread nD τ).loc b)) (c : Dev nD) (t : Fin cfg2.N) (p : Fin 5000) (k : Fin 128) (r : Fin 50000)
    (hr : r.val = t.val * 5000 + p.val) :
    (iblk2 (F := Ideal) V c 1 t : Vec Ideal S5000x128 .f32) (ix2 p k) = (V c main_v17 : S50000x128.Idx → EReal) (ix2 r k) := by
  obtain ⟨-, -, e0, e1, -⟩ := idx_facts t
  unfold iblk2
  rw [View.read_apply]
  show V c main_v17 _ = V c main_v17 _
  congr 1
  funext a
  apply Fin.ext
  match a with
  | ⟨0, _⟩ => show win2_1.index t (0 : Fin 2) * 5000 + 1 * p.val = r.val; omega
  | ⟨1, _⟩ => show win2_1.index t (1 : Fin 2) * 128 + 1 * k.val = k.val; omega

/-- The relation weights' block is the whole matrix at every point. -/
theorem relWeight_apply (V : (c : Dev nD) → (b : Ref sig .tc) → Buf (Elt Ideal) ((c : Thread nD τ).loc b)) (c : Dev nD) (t : Fin cfg2.N) (k q : Fin 128) :
    (iblk2 (F := Ideal) V c 2 t : Vec Ideal S128x128 .f32) (ix2 k q) = (V c main_v23 : S128x128.Idx → EReal) (ix2 k q) := by
  obtain ⟨-, -, -, -, e0, e1, -⟩ := idx_facts t
  unfold iblk2
  rw [View.read_apply]
  show V c main_v23 _ = V c main_v23 _
  congr 1
  funext a
  apply Fin.ext
  match a with
  | ⟨0, _⟩ => show win2_2.index t (0 : Fin 2) * 128 + 1 * k.val = k.val; omega
  | ⟨1, _⟩ => show win2_2.index t (1 : Fin 2) * 128 + 1 * q.val = q.val; omega

/-- The bias row's block is the whole row at every point. -/
theorem biasRow_apply (V : (c : Dev nD) → (b : Ref sig .tc) → Buf (Elt Ideal) ((c : Thread nD τ).loc b)) (c : Dev nD) (t : Fin cfg2.N) (q : Fin 128) :
    (iblk2 (F := Ideal) V c 3 t : Vec Ideal S1x128 .f32) (ix2 (0 : Fin 1) q) = (V c main_v28 : S1x128.Idx → EReal) (ix2 (0 : Fin 1) q) := by
  obtain ⟨-, -, -, -, -, -, e0, e1, -⟩ := idx_facts t
  unfold iblk2
  rw [View.read_apply]
  show V c main_v28 _ = V c main_v28 _
  congr 1
  funext a
  apply Fin.ext
  match a with
  | ⟨0, _⟩ => show win2_3.index t (0 : Fin 2) * 1 + 1 * 0 = 0; omega
  | ⟨1, _⟩ => show win2_3.index t (1 : Fin 2) * 128 + 1 * q.val = q.val; omega

/-- The root weights' block is the whole matrix at every point. -/
theorem rootWeight_apply (V : (c : Dev nD) → (b : Ref sig .tc) → Buf (Elt Ideal) ((c : Thread nD τ).loc b)) (c : Dev nD) (t : Fin cfg2.N) (k q : Fin 128) :
    (iblk2 (F := Ideal) V c 4 t : Vec Ideal S128x128 .f32) (ix2 k q) = (V c main_v27 : S128x128.Idx → EReal) (ix2 k q) := by
  obtain ⟨-, -, -, -, -, -, -, -, e0, e1, -⟩ := idx_facts t
  unfold iblk2
  rw [View.read_apply]
  show V c main_v27 _ = V c main_v27 _
  congr 1
  funext a
  apply Fin.ext
  match a with
  | ⟨0, _⟩ => show win2_4.index t (0 : Fin 2) * 128 + 1 * k.val = k.val; omega
  | ⟨1, _⟩ => show win2_4.index t (1 : Fin 2) * 128 + 1 * q.val = q.val; omega

/-- Inside the output's block at point `t`, local row `p` is the array's row `5000 t + p`. -/
theorem outBlock_emb (t : Fin cfg2.N) (p : Fin 5000) (q : Fin 128) (r : Fin 50000) (hr : r.val = t.val * 5000 + p.val) :
    ((cfg2.win 5).blk t).view.emb (ix2 p q) = (ix2 r q : S50000x128.Idx) := by
  obtain ⟨-, -, -, -, -, -, -, -, -, -, e0, e1⟩ := idx_facts t
  funext a
  apply Fin.ext
  match a with
  | ⟨0, _⟩ => show win2_5.index t (0 : Fin 2) * 5000 + 1 * p.val = r.val; omega
  | ⟨1, _⟩ => show win2_5.index t (1 : Fin 2) * 128 + 1 * q.val = q.val; omega

/-! ## From the blocks to the array -/

/-- What the body computes at local row `p`, column `q` of point `t` is the specification's entry at row `5000 t + p`:
    both are the maximum with zero of the same three summands, `(a + c) + b` on one side and `(a + b) + c` on the other;
    addition of extended reals is commutative and associative. -/
theorem blockValue (V : (c : Dev nD) → (b : Ref sig .tc) → Buf (Elt Ideal) ((c : Thread nD τ).loc b)) (c : Dev nD) (t : Fin cfg2.N) (p : Fin 5000) (q : Fin 128) (r : Fin 50000)
    (hr : r.val = t.val * 5000 + p.val) :
    k2_pay1 (F := Ideal) (iblk2 V c 0 t) (iblk2 V c 1 t) (iblk2 V c 2 t) (iblk2 V c 4 t) (iblk2 V c 3 t) (ix2 p q)
      = Cert.Spec.convRow (F := Ideal) (V c main_v21) (V c main_v17) (V c main_v23) (V c main_v28) (V c main_v27) (ix2 r q) := by
  refine (body_apply (iblk2 V c 0 t) (iblk2 V c 1 t) (iblk2 V c 2 t) (iblk2 V c 4 t) (iblk2 V c 3 t) p q).trans ?_
  refine ((convRow_apply (V c main_v21) (V c main_v17) (V c main_v23) (V c main_v27) (V c main_v28) r q).trans ?_).symm
  simp only [aggBlock_apply V c t _ _ r hr, featBlock_apply V c t _ _ r hr, relWeight_apply V c t, rootWeight_apply V c t,
    biasRow_apply V c t]
  rw [add_right_comm]

/-- WHAT POINT `t` WRITES BACK is block `t` of the specification's array. -/
theorem flushed_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal) (Cert.Spec.convRow (F := Ideal) (V c main_v21) (V c main_v17) (V c main_v23) (V c main_v28) (V c main_v27)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hr : t.val * 5000 + p.val < 50000 := by
    have := t.isLt; have hN : cfg2.N = 10 := N_2; have := p.isLt; omega
  rw [View.read_apply, outBlock_emb t p q ⟨t.val * 5000 + p.val, hr⟩ rfl]
  exact blockValue V c t p q ⟨t.val * 5000 + p.val, hr⟩ rfl

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v29).slice (win2_5.rect t)).set ↔ _
  rw [View.set_slice_whole, Rect.mem_set_unit]
  exact Iff.rfl

/-- Every row of the output array lies in the block of the point `row / 5000`, and every point writes its block back. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the ten points is the specification's function of the arrays the region found: every
    point writes its block of that function, and the ten blocks cover the array. -/
theorem final (V : (c : Dev nD) → (b : Ref sig .tc) → Buf (Elt Ideal) ((c : Thread nD τ).loc b)) (c : Dev nD) :
    (dat2 (F := Ideal) V c).arrAt 5 cfg2.N = Cert.Spec.convRow (F := Ideal) (V c main_v21) (V c main_v17) (V c main_v23) (V c main_v28) (V c main_v27) :=
  (dat2 (F := Ideal) V c).arrAt_eq_of_cover 5 (Cert.Spec.convRow (F := Ideal) (V c main_v21) (V c main_v17) (V c main_v23) (V c main_v28) (V c main_v27)) (fun t _ => flushed_eq V c t) cover

end Entries

variable [Cert.KernelIdeal.Facts] [Cert.ReferenceIdeal.Facts₀]

/-- The array the region leaves: `Spec.convRow` of the arrays it was entered with. -/
theorem value (V : (c : Dev nD) → (b : Ref sig .tc) → Buf (Elt Ideal) ((c : Thread nD τ).loc b)) (c : Dev nD) :
    (dat2 (F := Ideal) V c).arrAt 5 cfg2.N
      = Cert.Spec.convRow (F := Ideal) (V c main_v21) (V c main_v17) (V c main_v23) (V c main_v28) (V c main_v27) := by
  exact final V c

end Cert.KernelIdeal.ConvRegion2

end
-- ==== Proof.ConvRegion3.lean ====
/-
  The third graph-convolution region: after its ten grid points the output array is
  `max((agg·W_rel + b_rel) + x·W_root, 0)` of the five arrays the region found, as one whole-array function.
-/
import proofs.«416630_j84997402788219_1_alg».proof.Proof.Gen.KernelIdeal.Frame
import proofs.«416630_j84997402788219_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.ConvRegion3

open Idealize.ShloMosaic Idealize.ShloMosaic.TcCoe Idealize.SL.Sem
open Idealize.ShloMosaic.Pipeline (Dat Cfg Window)
open Cert.KernelIdeal Cert.KernelIdeal.Gen

section Entries

open Idealize.ShloMosaic.ValueIdx

variable [Cert.ReferenceIdeal.Facts₀]

/-! ## One entry of a block product

  A row block `[5000, 128]` times a weight matrix `[128, 128]`, contracted over the block's columns and the matrix's
  rows: entry `(p, q)` is `∑ k, x (p, k) * w (k, q)`. The four lemmas say which entry of each factor the product reads
  on each axis; the fifth re-indexes the sum over the one contracted axis by `k : Fin 128`. -/

/-- The left factor is read at the output's row. -/
theorem blockLeft_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left factor's column is the contracted index. -/
theorem blockLeft_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row is the contracted index. -/
theorem blockRight_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right factor is read at the output's column. -/
theorem blockRight_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product accumulated from zero, at row `p` and column `q`: the left factor's row `p` against the right
    factor's column `q`. -/
theorem blockProduct_apply (x : FVec Ideal S5000x128 .bf16) (w : FVec Ideal S128x128 .bf16) (p : Fin 5000) (q : Fin 128) :
    FloatOps.matmul dot_S5000x128_S128x128_S5000x128_1_0_0_1_n_n none x w (constant S5000x128 .f32 0x00000000#32) (ix2 p q)
      = ∑ k : Fin 128, x (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockLeft_row _ _
    | ⟨1, _⟩ => exact (blockLeft_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockRight_contr _ _).trans hk
    | ⟨1, _⟩ => exact blockRight_col _ _)
  rw [el, er]

/-- THE BODY AT AN ENTRY. Rounding the factors to bf16 changes nothing on the extended reals, the reshapes are to the
    same shape, and the bias row is repeated down the rows: entry `(p, q)` of what the body stores is
    `max((agg·W_rel + x·W_root) + b, 0)` read at `(p, q)`, the bias at `(0, q)`. -/
theorem body_apply (agg x : Vec Ideal S5000x128 .f32) (wrel wroot : Vec Ideal S128x128 .f32) (b : Vec Ideal S1x128 .f32)
    (p : Fin 5000) (q : Fin 128) :
    k3_pay1 (F := Ideal) agg x wrel wroot b (ix2 p q)
      = max (((∑ k : Fin 128, agg (ix2 p k) * wrel (ix2 k q)) + (∑ k : Fin 128, x (ix2 p k) * wroot (ix2 k q)))
          + b (ix2 (0 : Fin 1) q)) (Ideal.ofBits .f32 0x00000000#32) := by
  unfold k3_pay1
  simp only [shapeCast_self]
  rw [maximumf_apply, addf_apply, addf_apply, broadcast_apply, broadcastTo_1b_ab_apply]
  simp only [matmul]
  rw [blockProduct_apply, blockProduct_apply]
  rfl

/-! ## One entry of the specification

  The same reading of `Spec.convRow`: the whole-array products `[50000, 128] · [128, 128]` at an entry, the bias row
  repeated down the rows, the zero scalar repeated everywhere. -/

/-- The left factor is read at the output's row. -/
theorem wholeLeft_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch from List.not_mem_nil),
    dif_pos (show (0 : Fin Cert.ReferenceIdeal.S50000x128.rank) ∈ Cert.ReferenceIdeal.dot_S50000x128_S128x128_S50000x128_1_0_0_1_n_n.lhsNonContracting from List.mem_singleton_self _)]
  rfl
/-- The left factor's column is the contracted index. -/
theorem wholeLeft_contr (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, Nat.zero_lt_one⟩).val :=
  Cert.ReferenceIdeal.dot_S50000x128_S128x128_S50000x128_1_0_0_1_n_n.lhsIdx_val_of_single rfl i q
/-- The right factor's row is the contracted index. -/
theorem wholeRight_contr (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, Nat.zero_lt_one⟩).val :=
  Cert.ReferenceIdeal.dot_S50000x128_S128x128_S50000x128_1_0_0_1_n_n.rhsIdx_val_of_single rfl i q
/-- The right factor is read at the output's column. -/
theorem wholeRight_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch from List.not_mem_nil),
    dif_pos (show (1 : Fin Cert.ReferenceIdeal.S128x128.rank) ∈ Cert.ReferenceIdeal.dot_S50000x128_S128x128_S50000x128_1_0_0_1_n_n.rhsNonContracting from List.mem_singleton_self _)]
  rfl

/-- The whole-array product at row `r` and column `q`: row `r` of the left factor against column `q` of the right. -/
theorem wholeProduct_apply (x : FVec Ideal Cert.ReferenceIdeal.S50000x128 .f32) (w : FVec Ideal Cert.ReferenceIdeal.S128x128 .f32) (r : Fin 50000) (q : Fin 128) :
    Host.dotGeneral Cert.ReferenceIdeal.dot_S50000x128_S128x128_S50000x128_1_0_0_1_n_n none x w (ix2 r q) = ∑ k : Fin 128, x (ix2 r k) * w (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact wholeLeft_row _ _
    | ⟨1, _⟩ => exact (wholeLeft_contr _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (wholeRight_contr _ _).trans hk
    | ⟨1, _⟩ => exact wholeRight_col _ _)
  rw [el, er]

/-- THE SPECIFICATION AT AN ENTRY: `max((agg·W_rel + b) + x·W_root, 0)` read at `(r, q)`, the bias at `(0, q)`. -/
theorem convRow_apply (agg x : FVec Ideal Cert.ReferenceIdeal.S50000x128 .f32) (relw rootw : FVec Ideal Cert.ReferenceIdeal.S128x128 .f32)
    (relb : FVec Ideal Cert.ReferenceIdeal.S1x128 .f32) (r : Fin 50000) (q : Fin 128) :
    Cert.Spec.convRow (F := Ideal) agg x relw relb rootw (ix2 r q)
      = max (((∑ k : Fin 128, agg (ix2 r k) * relw (ix2 k q)) + relb (ix2 (0 : Fin 1) q))
          + (∑ k : Fin 128, x (ix2 r k) * rootw (ix2 k q))) (Ideal.ofBits .f32 0x00000000#32) := by
  unfold Cert.Spec.convRow Cert.Spec.relu
  rw [maximumf_apply, addf_apply, addf_apply, broadcastInDim_scalar_apply, broadcastInDim_oneRow_apply, constant_apply,
    wholeProduct_apply, wholeProduct_apply]

/-! ## The blocks the ten points read and write

  Point `t` reads rows `5000 t … 5000 t + 4999` of the aggregated messages and of the node features, the two weight
  matrices and the bias row whole, and writes the same rows of the output. -/

theorem hz : (![0, 0] : Fin 2 → Nat) = fun _ => 0 := funext fun a => by fin_cases a <;> rfl

/-- The block index of every window at every point: the point on the row axis for the three row-blocked arrays,
    zero everywhere else (decided over the ten points). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Local row `p` of the aggregated messages' block at point `t` is the array's row `5000 t + p`. -/
theorem aggBlock_apply (V : (c : Dev nD) → (b : Ref sig .tc) → Buf (Elt Ideal) ((c : Thread nD τ).loc b)) (c : Dev nD) (t : Fin cfg3.N) (p : Fin 5000) (k : Fin 128) (r : Fin 50000)
    (hr : r.val = t.val * 5000 + p.val) :
    (iblk3 (F := Ideal) V c 0 t : Vec Ideal S5000x128 .f32) (ix2 p k) = (V c main_v33 : S50000x128.Idx → EReal) (ix2 r k) := by
  obtain ⟨e0, e1, -⟩ := idx_facts t
  unfold iblk3
  rw [View.read_apply]
  show V c main_v33 _ = V c main_v33 _
  congr 1
  funext a
  apply Fin.ext
  match a with
  | ⟨0, _⟩ => show win3_0.index t (0 : Fin 2) * 5000 + 1 * p.val = r.val; omega
  | ⟨1, _⟩ => show win3_0.index t (1 : Fin 2) * 128 + 1 * k.val = k.val; omega

/-- Local row `p` of the node features' block at point `t` is the array's row `5000 t + p`. -/
theorem featBlock_apply (V : (c : Dev nD) → (b : Ref sig .tc) → Buf (Elt Ideal) ((c : Thread nD τ).loc b)) (c : Dev nD) (t : Fin cfg3.N) (p : Fin 5000) (k : Fin 128) (r : Fin 50000)
    (hr : r.val = t.val * 5000 + p.val) :
    (iblk3 (F := Ideal) V c 1 t : Vec Ideal S5000x128 .f32) (ix2 p k) = (V c main_v29 : S50000x128.Idx → EReal) (ix2 r k) := by
  obtain ⟨-, -, e0, e1, -⟩ := idx_facts t
  unfold iblk3
  rw [View.read_apply]
  show V c main_v29 _ = V c main_v29 _
  congr 1
  funext a
  apply Fin.ext
  match a with
  | ⟨0, _⟩ => show win3_1.index t (0 : Fin 2) * 5000 + 1 * p.val = r.val; omega
  | ⟨1, _⟩ => show win3_1.index t (1 : Fin 2) * 128 + 1 * k.val = k.val; omega

/-- The relation weights' block is the whole matrix at every point. -/
theorem relWeight_apply (V : (c : Dev nD) → (b : Ref sig .tc) → Buf (Elt Ideal) ((c : Thread nD τ).loc b)) (c : Dev nD) (t : Fin cfg3.N) (k q : Fin 128) :
    (iblk3 (F := Ideal) V c 2 t : Vec Ideal S128x128 .f32) (ix2 k q) = (V c main_v35 : S128x128.Idx → EReal) (ix2 k q) := by
  obtain ⟨-, -, -, -, e0, e1, -⟩ := idx_facts t
  unfold iblk3
  rw [View.read_apply]
  show V c main_v35 _ = V c main_v35 _
  congr 1
  funext a
  apply Fin.ext
  match a with
  | ⟨0, _⟩ => show win3_2.index t (0 : Fin 2) * 128 + 1 * k.val = k.val; omega
  | ⟨1, _⟩ => show win3_2.index t (1 : Fin 2) * 128 + 1 * q.val = q.val; omega

/-- The bias row's block is the whole row at every point. -/
theorem biasRow_apply (V : (c : Dev nD) → (b : Ref sig .tc) → Buf (Elt Ideal) ((c : Thread nD τ).loc b)) (c : Dev nD) (t : Fin cfg3.N) (q : Fin 128) :
    (iblk3 (F := Ideal) V c 3 t : Vec Ideal S1x128 .f32) (ix2 (0 : Fin 1) q) = (V c main_v40 : S1x128.Idx → EReal) (ix2 (0 : Fin 1) q) := by
  obtain ⟨-, -, -, -, -, -, e0, e1, -⟩ := idx_facts t
  unfold iblk3
  rw [View.read_apply]
  show V c main_v40 _ = V c main_v40 _
  congr 1
  funext a
  apply Fin.ext
  match a with
  | ⟨0, _⟩ => show win3_3.index t (0 : Fin 2) * 1 + 1 * 0 = 0; omega
  | ⟨1, _⟩ => show win3_3.index t (1 : Fin 2) * 128 + 1 * q.val = q.val; omega

/-- The root weights' block is the whole matrix at every point. -/
theorem rootWeight_apply (V : (c : Dev nD) → (b : Ref sig .tc) → Buf (Elt Ideal) ((c : Thread nD τ).loc b)) (c : Dev nD) (t : Fin cfg3.N) (k q : Fin 128) :
    (iblk3 (F := Ideal) V c 4 t : Vec Ideal S128x128 .f32) (ix2 k q) = (V c main_v39 : S128x128.Idx → EReal) (ix2 k q) := by
  obtain ⟨-, -, -, -, -, -, -, -, e0, e1, -⟩ := idx_facts t
  unfold iblk3
  rw [View.read_apply]
  show V c main_v39 _ = V c main_v39 _
  congr 1
  funext a
  apply Fin.ext
  match a with
  | ⟨0, _⟩ => show win3_4.index t (0 : Fin 2) * 128 + 1 * k.val = k.val; omega
  | ⟨1, _⟩ => show win3_4.index t (1 : Fin 2) * 128 + 1 * q.val = q.val; omega

/-- Inside the output's block at point `t`, local row `p` is the array's row `5000 t + p`. -/
theorem outBlock_emb (t : Fin cfg3.N) (p : Fin 5000) (q : Fin 128) (r : Fin 50000) (hr : r.val = t.val * 5000 + p.val) :
    ((cfg3.win 5).blk t).view.emb (ix2 p q) = (ix2 r q : S50000x128.Idx) := by
  obtain ⟨-, -, -, -, -, -, -, -, -, -, e0, e1⟩ := idx_facts t
  funext a
  apply Fin.ext
  match a with
  | ⟨0, _⟩ => show win3_5.index t (0 : Fin 2) * 5000 + 1 * p.val = r.val; omega
  | ⟨1, _⟩ => show win3_5.index t (1 : Fin 2) * 128 + 1 * q.val = q.val; omega

/-! ## From the blocks to the array -/

/-- What the body computes at local row `p`, column `q` of point `t` is the specification's entry at row `5000 t + p`:
    both are the maximum with zero of the same three summands, `(a + c) + b` on one side and `(a + b) + c` on the other;
    addition of extended reals is commutative and associative. -/
theorem blockValue (V : (c : Dev nD) → (b : Ref sig .tc) → Buf (Elt Ideal) ((c : Thread nD τ).loc b)) (c : Dev nD) (t : Fin cfg3.N) (p : Fin 5000) (q : Fin 128) (r : Fin 50000)
    (hr : r.val = t.val * 5000 + p.val) :
    k3_pay1 (F := Ideal) (iblk3 V c 0 t) (iblk3 V c 1 t) (iblk3 V c 2 t) (iblk3 V c 4 t) (iblk3 V c 3 t) (ix2 p q)
      = Cert.Spec.convRow (F := Ideal) (V c main_v33) (V c main_v29) (V c main_v35) (V c main_v40) (V c main_v39) (ix2 r q) := by
  refine (body_apply (iblk3 V c 0 t) (iblk3 V c 1 t) (iblk3 V c 2 t) (iblk3 V c 4 t) (iblk3 V c 3 t) p q).trans ?_
  refine ((convRow_apply (V c main_v33) (V c main_v29) (V c main_v35) (V c main_v39) (V c main_v40) r q).trans ?_).symm
  simp only [aggBlock_apply V c t _ _ r hr, featBlock_apply V c t _ _ r hr, relWeight_apply V c t, rootWeight_apply V c t,
    biasRow_apply V c t]
  rw [add_right_comm]

/-- WHAT POINT `t` WRITES BACK is block `t` of the specification's array. -/
theorem flushed_eq (V : (c : Dev nD) → (b : Ref sig .tc) → Buf (Elt Ideal) ((c : Thread nD τ).loc b)) (c : Dev nD) (t : Fin cfg3.N) :
    (dat3 (F := Ideal) V c).flushed 5 t = ((cfg3.win 5).blk t).view.read (Elt Ideal) (Cert.Spec.convRow (F := Ideal) (V c main_v33) (V c main_v29) (V c main_v35) (V c main_v40) (V c main_v39)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hr : t.val * 5000 + p.val < 50000 := by
    have := t.isLt; have hN : cfg3.N = 10 := N_3; have := p.isLt; omega
  rw [View.read_apply, outBlock_emb t p q ⟨t.val * 5000 + p.val, hr⟩ rfl]
  exact blockValue V c t p q ⟨t.val * 5000 + p.val, hr⟩ rfl

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v41).slice (win3_5.rect t)).set ↔ _
  rw [View.set_slice_whole, Rect.mem_set_unit]
  exact Iff.rfl

/-- Every row of the output array lies in the block of the point `row / 5000`, and every point writes its block back. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the ten points is the specification's function of the arrays the region found: every
    point writes its block of that function, and the ten blocks cover the array. -/
theorem final (V : (c : Dev nD) → (b : Ref sig .tc) → Buf (Elt Ideal) ((c : Thread nD τ).loc b)) (c : Dev nD) :
    (dat3 (F := Ideal) V c).arrAt 5 cfg3.N = Cert.Spec.convRow (F := Ideal) (V c main_v33) (V c main_v29) (V c main_v35) (V c main_v40) (V c main_v39) :=
  (dat3 (F := Ideal) V c).arrAt_eq_of_cover 5 (Cert.Spec.convRow (F := Ideal) (V c main_v33) (V c main_v29) (V c main_v35) (V c main_v40) (V c main_v39)) (fun t _ => flushed_eq V c t) cover

end Entries

variable [Cert.KernelIdeal.Facts] [Cert.ReferenceIdeal.Facts₀]

/-- The array the region leaves: `Spec.convRow` of the arrays it was entered with. -/
theorem value (V : (c : Dev nD) → (b : Ref sig .tc) → Buf (Elt Ideal) ((c : Thread nD τ).loc b)) (c : Dev nD) :
    (dat3 (F := Ideal) V c).arrAt 5 cfg3.N
      = Cert.Spec.convRow (F := Ideal) (V c main_v33) (V c main_v29) (V c main_v35) (V c main_v40) (V c main_v39) := by
  exact final V c

end Cert.KernelIdeal.ConvRegion3

end
-- ==== Proof.HeadRegion.lean ====
/-
  The edge-head region: after its hundred grid points the output array is `E·W + b` of the three arrays the region
  found, as one whole-array function.
-/
import proofs.«416630_j84997402788219_1_alg».proof.Proof.Gen.KernelIdeal.Frame
import proofs.«416630_j84997402788219_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadRegion

open Idealize.ShloMosaic Idealize.ShloMosaic.TcCoe Idealize.SL.Sem
open Idealize.ShloMosaic.Pipeline (Dat Cfg Window)
open Cert.KernelIdeal Cert.KernelIdeal.Gen

section Entries
open Idealize.ShloMosaic.ValueIdx

/-! ## The block product at an entry

For the output entry (p, q) and the contracted position k, the product reads its left operand at (p, k) and its right
operand at (k, q): one coordinate at a time, then the sum. -/

theorem lhs_blockDot_0 (i : S6000x32.Idx) (q : dot_S6000x256_S256x32_S6000x32_1_0_0_1_n_n.contr.Idx) :
    (dot_S6000x256_S256x32_S6000x32_1_0_0_1_n_n.lhsIdx i q 0).val = (i 0).val := by
  unfold DotDims.lhsIdx
  rw [dif_neg (show ¬(0 : Fin S6000x256.rank) ∈ dot_S6000x256_S256x32_S6000x32_1_0_0_1_n_n.lhsBatch by decide), dif_pos (show (0 : Fin S6000x256.rank) ∈ dot_S6000x256_S256x32_S6000x32_1_0_0_1_n_n.lhsNonContracting by decide)]
  rfl
theorem lhs_blockDot_1 (i : S6000x32.Idx) (q : dot_S6000x256_S256x32_S6000x32_1_0_0_1_n_n.contr.Idx) :
    (dot_S6000x256_S256x32_S6000x32_1_0_0_1_n_n.lhsIdx i q 1).val = (q ⟨0, by decide⟩).val :=
  dot_S6000x256_S256x32_S6000x32_1_0_0_1_n_n.lhsIdx_val_of_single rfl i q
theorem rhs_blockDot_0 (i : S6000x32.Idx) (q : dot_S6000x256_S256x32_S6000x32_1_0_0_1_n_n.contr.Idx) :
    (dot_S6000x256_S256x32_S6000x32_1_0_0_1_n_n.rhsIdx i q 0).val = (q ⟨0, by decide⟩).val :=
  dot_S6000x256_S256x32_S6000x32_1_0_0_1_n_n.rhsIdx_val_of_single rfl i q
theorem rhs_blockDot_1 (i : S6000x32.Idx) (q : dot_S6000x256_S256x32_S6000x32_1_0_0_1_n_n.contr.Idx) :
    (dot_S6000x256_S256x32_S6000x32_1_0_0_1_n_n.rhsIdx i q 1).val = (i 1).val := by
  unfold DotDims.rhsIdx
  rw [dif_neg (show ¬(1 : Fin S256x32.rank) ∈ dot_S6000x256_S256x32_S6000x32_1_0_0_1_n_n.rhsBatch by decide), dif_pos (show (1 : Fin S256x32.rank) ∈ dot_S6000x256_S256x32_S6000x32_1_0_0_1_n_n.rhsNonContracting by decide)]
  rfl

/-- A block's product into the zero accumulator, at row `p` and column `q`: the sum over the 256 contracted
    positions of the row's entry times the column's. -/
theorem blockDot_apply (a : FVec Ideal S6000x256 .bf16) (b : FVec Ideal S256x32 .bf16) (p : Fin 6000) (q : Fin 32) :
    matmul dot_S6000x256_S256x32_S6000x32_1_0_0_1_n_n none a b (constant (F := Ideal) S6000x32 .f32 0x00000000#32) (ix2 p q)
      = ∑ k : Fin 256, a (ix2 p k) * b (ix2 k q) := by
  refine (Ideal.matmul_constant_zero_apply dot_S6000x256_S256x32_S6000x32_1_0_0_1_n_n none a b (ix2 p q)).trans ?_
  rw [← Equiv.sum_comp (contrEquiv1 dot_S6000x256_S256x32_S6000x32_1_0_0_1_n_n 256 rfl rfl).symm]
  refine Finset.sum_congr rfl fun k _ => ?_
  have hk := contrEquiv1_symm_val dot_S6000x256_S256x32_S6000x32_1_0_0_1_n_n 256 rfl rfl k
  have el : dot_S6000x256_S256x32_S6000x32_1_0_0_1_n_n.lhsIdx (ix2 p q) ((contrEquiv1 dot_S6000x256_S256x32_S6000x32_1_0_0_1_n_n 256 rfl rfl).symm k) = ix2 p k := funext fun a => Fin.ext (by
    match a with
    | ⟨0, _⟩ => exact lhs_blockDot_0 _ _
    | ⟨1, _⟩ => exact (lhs_blockDot_1 _ _).trans hk)
  have er : dot_S6000x256_S256x32_S6000x32_1_0_0_1_n_n.rhsIdx (ix2 p q) ((contrEquiv1 dot_S6000x256_S256x32_S6000x32_1_0_0_1_n_n 256 rfl rfl).symm k) = ix2 k q := funext fun a => Fin.ext (by
    match a with
    | ⟨0, _⟩ => exact (rhs_blockDot_0 _ _).trans hk
    | ⟨1, _⟩ => exact rhs_blockDot_1 _ _)
  rw [el, er]

/-- What the body stores at row `p`, column `q` of its block: the row of the edge block against the column of the
    weights, plus the bias row's entry in that column. -/
theorem pay_apply (x0 : FVec Ideal S6000x256 .f32) (x1 : FVec Ideal S256x32 .f32) (x2 : FVec Ideal S1x32 .f32) (p : Fin 6000) (q : Fin 32) :
    k4_pay1 (F := Ideal) x0 x1 x2 (ix2 p q) = (∑ k : Fin 256, x0 (ix2 p k) * x1 (ix2 k q)) + x2 (ix2 (0 : Fin 1) q) := by
  unfold k4_pay1
  refine (addf_apply _ _ (ix2 p q)).trans ?_
  refine congrArg₂ (· + ·) ?_ ?_
  · refine (blockDot_apply _ _ p q).trans ?_
    rw [shapeCast_self]
    rfl
  · refine (broadcastTo_1b_ab_apply _ broadcasts_S1x32_S6000x32 p q).trans ?_
    rw [shapeCast_self]

/-! ## The blocks of the grid

Grid point `t` of the hundred works on rows `6000 t … 6000 t + 5999`: its edge-feature block and its output block
are those rows of their arrays, all columns; the weight matrix and the bias row are whole at every point. -/

/-- The zero offsets of a whole two-axis block. -/
theorem zeroOffsets : (![0, 0] : Fin 2 → Nat) = fun _ => 0 := funext fun a => by fin_cases a <;> rfl

/-- The block index of each window at each of the hundred grid points: the row-blocked windows (edge features,
    output) sit at block `t` on the rows and block 0 on the columns, the two whole-array windows at block (0, 0). -/
theorem blockIndex : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section Reads
variable (V : (c : Dev nD) → (b : Ref sig .tc) → Buf (Elt Ideal) ((c : Thread nD τ).loc b))

/-- Entry (p, k) of the edge-feature block at point `t` is entry (6000 t + p, k) of the edge features. -/
theorem edgeBlock_apply (c : Dev nD) (t : Fin cfg4.N) (p : Fin 6000) (k : Fin 256) (r : Fin 600000)
    (hr : r.val = t.val * 6000 + p.val) :
    (iblk4 V c 0 t : Vec Ideal S6000x256 .f32) (ix2 p k) = (V c main_v44 : Vec Ideal S600000x256 .f32) (ix2 r k) := by
  obtain ⟨e0, e1, -⟩ := blockIndex t
  show V c main_v44 (((cfg4.win 0).blk t).view.emb (ix2 p k)) = V c main_v44 (ix2 r k)
  refine congrArg (V c main_v44) (funext fun a => Fin.ext ?_)
  match a with
  | ⟨0, _⟩ => show win4_0.index t (0 : Fin 2) * 6000 + 1 * p.val = r.val; omega
  | ⟨1, _⟩ => show win4_0.index t (1 : Fin 2) * 256 + 1 * k.val = k.val; omega

/-- The weight block at any point is the weight matrix. -/
theorem weightBlock_apply (c : Dev nD) (t : Fin cfg4.N) (k : Fin 256) (q : Fin 32) :
    (iblk4 V c 1 t : Vec Ideal S256x32 .f32) (ix2 k q) = (V c main_arg7 : Vec Ideal S256x32 .f32) (ix2 k q) := by
  obtain ⟨-, -, e2, e3, -⟩ := blockIndex t
  show V c main_arg7 (((cfg4.win 1).blk t).view.emb (ix2 k q)) = V c main_arg7 (ix2 k q)
  refine congrArg (V c main_arg7) (funext fun a => Fin.ext ?_)
  match a with
  | ⟨0, _⟩ => show win4_1.index t (0 : Fin 2) * 256 + 1 * k.val = k.val; omega
  | ⟨1, _⟩ => show win4_1.index t (1 : Fin 2) * 32 + 1 * q.val = q.val; omega

/-- The bias block at any point is the bias row. -/
theorem biasBlock_apply (c : Dev nD) (t : Fin cfg4.N) (q : Fin 32) :
    (iblk4 V c 2 t : Vec Ideal S1x32 .f32) (ix2 (0 : Fin 1) q) = (V c main_v45 : Vec Ideal S1x32 .f32) (ix2 (0 : Fin 1) q) := by
  obtain ⟨-, -, -, -, e4, e5, -⟩ := blockIndex t
  show V c main_v45 (((cfg4.win 2).blk t).view.emb (ix2 (0 : Fin 1) q)) = V c main_v45 (ix2 (0 : Fin 1) q)
  refine congrArg (V c main_v45) (funext fun a => Fin.ext ?_)
  match a with
  | ⟨0, _⟩ => show win4_2.index t (0 : Fin 2) * 1 + 1 * 0 = 0; omega
  | ⟨1, _⟩ => show win4_2.index t (1 : Fin 2) * 32 + 1 * q.val = q.val; omega

end Reads

/-- A row and column of the output array lie in point `t`'s block iff each lies in the block's range on its axis. -/
theorem mem_outBlock (t : Fin cfg4.N) (i : S600000x32.Idx) :
    i ∈ ((cfg4.win 3).blk t).view.set ↔ ∀ a : Fin 2, win4_3.index t a * S6000x32.size a ≤ (i a).val ∧ (i a).val < win4_3.index t a * S6000x32.size a + S6000x32.size a := by
  show i ∈ ((View.whole main_v46).slice (win4_3.rect t)).set ↔ _
  rw [View.set_slice_whole, Rect.mem_set_unit]
  exact Iff.rfl

/-- Every entry of the output array is written back by some point: row `r` by point `r / 6000`. -/
theorem covered (i : S600000x32.Idx) :
    ∃ t : Fin cfg4.N, (cfg4.win 3).flush t = true ∧ i ∈ ((cfg4.win 3).blk t).view.set := by
  have hi0 : (i 0).val < 600000 := (i 0).isLt
  have hi1 : (i 1).val < 32 := (i 1).isLt
  have ht : (i 0).val / 6000 < cfg4.N := lt_of_lt_of_eq (by omega) N_4.symm
  obtain ⟨-, -, -, -, -, -, e6, e7⟩ := blockIndex ⟨(i 0).val / 6000, ht⟩
  refine ⟨⟨(i 0).val / 6000, ht⟩, flush4_3 _, ?_⟩
  rw [mem_outBlock]
  intro a
  match a with
  | ⟨0, _⟩ =>
    show win4_3.index ⟨(i 0).val / 6000, ht⟩ (0 : Fin 2) * 6000 ≤ (i 0).val ∧ (i 0).val < win4_3.index ⟨(i 0).val / 6000, ht⟩ (0 : Fin 2) * 6000 + 6000
    have e : win4_3.index ⟨(i 0).val / 6000, ht⟩ (0 : Fin 2) = (i 0).val / 6000 := e6
    omega
  | ⟨1, _⟩ =>
    show win4_3.index ⟨(i 0).val / 6000, ht⟩ (1 : Fin 2) * 32 ≤ (i 1).val ∧ (i 1).val < win4_3.index ⟨(i 0).val / 6000, ht⟩ (1 : Fin 2) * 32 + 32
    omega

section Spec
variable [Cert.ReferenceIdeal.Facts₀]

/-! ## The specification at an entry

The same reading of the whole-array product: left operand at (r, k), right operand at (k, q). -/

theorem lhs_arrayDot_0 (i : Cert.ReferenceIdeal.S600000x32.Idx) (q : Cert.ReferenceIdeal.dot_S600000x256_S256x32_S600000x32_1_0_0_1_n_n.contr.Idx) :
    (Cert.ReferenceIdeal.dot_S600000x256_S256x32_S600000x32_1_0_0_1_n_n.lhsIdx i q 0).val = (i 0).val := by
  unfold DotDims.lhsIdx
  rw [dif_neg (show ¬(0 : Fin Cert.ReferenceIdeal.S600000x256.rank) ∈ Cert.ReferenceIdeal.dot_S600000x256_S256x32_S600000x32_1_0_0_1_n_n.lhsBatch from List.not_mem_nil), dif_pos (show (0 : Fin Cert.ReferenceIdeal.S600000x256.rank) ∈ Cert.ReferenceIdeal.dot_S600000x256_S256x32_S600000x32_1_0_0_1_n_n.lhsNonContracting from List.mem_singleton.mpr rfl)]
  rfl
theorem lhs_arrayDot_1 (i : Cert.ReferenceIdeal.S600000x32.Idx) (q : Cert.ReferenceIdeal.dot_S600000x256_S256x32_S600000x32_1_0_0_1_n_n.contr.Idx) :
    (Cert.ReferenceIdeal.dot_S600000x256_S256x32_S600000x32_1_0_0_1_n_n.lhsIdx i q 1).val = (q ⟨0, Nat.one_pos⟩).val :=
  Cert.ReferenceIdeal.dot_S600000x256_S256x32_S600000x32_1_0_0_1_n_n.lhsIdx_val_of_single rfl i q
theorem rhs_arrayDot_0 (i : Cert.ReferenceIdeal.S600000x32.Idx) (q : Cert.ReferenceIdeal.dot_S600000x256_S256x32_S600000x32_1_0_0_1_n_n.contr.Idx) :
    (Cert.ReferenceIdeal.dot_S600000x256_S256x32_S600000x32_1_0_0_1_n_n.rhsIdx i q 0).val = (q ⟨0, Nat.one_pos⟩).val :=
  Cert.ReferenceIdeal.dot_S600000x256_S256x32_S600000x32_1_0_0_1_n_n.rhsIdx_val_of_single rfl i q
theorem rhs_arrayDot_1 (i : Cert.ReferenceIdeal.S600000x32.Idx) (q : Cert.ReferenceIdeal.dot_S600000x256_S256x32_S600000x32_1_0_0_1_n_n.contr.Idx) :
    (Cert.ReferenceIdeal.dot_S600000x256_S256x32_S600000x32_1_0_0_1_n_n.rhsIdx i q 1).val = (i 1).val := by
  unfold DotDims.rhsIdx
  rw [dif_neg (show ¬(1 : Fin Cert.ReferenceIdeal.S256x32.rank) ∈ Cert.ReferenceIdeal.dot_S600000x256_S256x32_S600000x32_1_0_0_1_n_n.rhsBatch from List.not_mem_nil), dif_pos (show (1 : Fin Cert.ReferenceIdeal.S256x32.rank) ∈ Cert.ReferenceIdeal.dot_S600000x256_S256x32_S600000x32_1_0_0_1_n_n.rhsNonContracting from List.mem_singleton.mpr rfl)]
  rfl

/-- The whole-array product at row `r` and column `q`: the sum over the 256 contracted positions. -/
theorem arrayDot_apply (X : FVec Ideal Cert.ReferenceIdeal.S600000x256 .f32) (W : FVec Ideal Cert.ReferenceIdeal.S256x32 .f32) (r : Fin 600000) (q : Fin 32) :
    Host.dotGeneral (F := Ideal) Cert.ReferenceIdeal.dot_S600000x256_S256x32_S600000x32_1_0_0_1_n_n none X W (ix2 r q)
      = ∑ k : Fin 256, X (ix2 r k) * W (ix2 k q) := by
  refine (Ideal.dotGeneral_apply Cert.ReferenceIdeal.dot_S600000x256_S256x32_S600000x32_1_0_0_1_n_n none .single X W (ix2 r q)).trans ?_
  rw [← Equiv.sum_comp (contrEquiv1 Cert.ReferenceIdeal.dot_S600000x256_S256x32_S600000x32_1_0_0_1_n_n 256 rfl rfl).symm]
  refine Finset.sum_congr rfl fun k _ => ?_
  have hk := contrEquiv1_symm_val Cert.ReferenceIdeal.dot_S600000x256_S256x32_S600000x32_1_0_0_1_n_n 256 rfl rfl k
  have el : Cert.ReferenceIdeal.dot_S600000x256_S256x32_S600000x32_1_0_0_1_n_n.lhsIdx (ix2 r q) ((contrEquiv1 Cert.ReferenceIdeal.dot_S600000x256_S256x32_S600000x32_1_0_0_1_n_n 256 rfl rfl).symm k) = ix2 r k := funext fun a => Fin.ext (by
    match a with
    | ⟨0, _⟩ => exact lhs_arrayDot_0 _ _
    | ⟨1, _⟩ => exact (lhs_arrayDot_1 _ _).trans hk)
  have er : Cert.ReferenceIdeal.dot_S600000x256_S256x32_S600000x32_1_0_0_1_n_n.rhsIdx (ix2 r q) ((contrEquiv1 Cert.ReferenceIdeal.dot_S600000x256_S256x32_S600000x32_1_0_0_1_n_n 256 rfl rfl).symm k) = ix2 k q := funext fun a => Fin.ext (by
    match a with
    | ⟨0, _⟩ => exact (rhs_arrayDot_0 _ _).trans hk
    | ⟨1, _⟩ => exact rhs_arrayDot_1 _ _)
  rw [el, er]

/-- `Spec.headRow` at row `r`, column `q`: the row of the edge features against the column of the weights, plus
    the bias row's entry in that column. -/
theorem headRow_apply (X : FVec Ideal Cert.ReferenceIdeal.S600000x256 .f32) (W : FVec Ideal Cert.ReferenceIdeal.S256x32 .f32)
    (B : FVec Ideal Cert.ReferenceIdeal.S1x32 .f32) (r : Fin 600000) (q : Fin 32) :
    Cert.Spec.headRow (F := Ideal) X W B (ix2 r q) = (∑ k : Fin 256, X (ix2 r k) * W (ix2 k q)) + B (ix2 (0 : Fin 1) q) := by
  unfold Cert.Spec.headRow
  refine (addf_apply _ _ (ix2 r q)).trans ?_
  refine congrArg₂ (· + ·) (arrayDot_apply X W r q) ?_
  exact broadcastInDim_apply _ _ B (ix2 r q) (ix2 (0 : Fin 1) q) (fun a => match a with
    | ⟨0, _⟩ => by show 0 = if (1 : Nat) = 1 then 0 else r.val; rw [if_pos rfl]
    | ⟨1, _⟩ => by show q.val = if (32 : Nat) = 1 then 0 else q.val; rw [if_neg (by decide)])

/-! ## From the blocks to the array -/

section Array
variable (V : (c : Dev nD) → (b : Ref sig .tc) → Buf (Elt Ideal) ((c : Thread nD τ).loc b))

/-- What point `t` writes back is its block of `Spec.headRow` of the arrays the region found: entry (p, q) of the
    stored block and entry (6000 t + p, q) of the specification are the same sum of products plus the same bias entry. -/
theorem flushed_eq (c : Dev nD) (t : Fin cfg4.N) :
    (dat4 (F := Ideal) V c).flushed 3 t
      = ((cfg4.win 3).blk t).view.read (Elt Ideal) (Cert.Spec.headRow (F := Ideal) (V c main_v44) (V c main_arg7) (V c main_v45)) := by
  show (cfg4.win 3).cut (grid4.coords t) ((dat4 V c).after 3 t) = _
  rw [after4_3]
  unfold out4_3
  rw [View.canon_unit_zero zeroOffsets]
  simp only [View.ld_unit_zero (S := S6000x256) zeroOffsets, View.ld_unit_zero (S := S256x32) zeroOffsets, View.ld_unit_zero (S := S1x32) zeroOffsets]
  funext j
  have hj0 : (j 0).val < 6000 := (j 0).isLt
  have hj1 : (j 1).val < 32 := (j 1).isLt
  have ht : t.val < 100 := lt_of_lt_of_eq t.isLt N_4
  obtain ⟨-, -, -, -, -, -, e6, e7⟩ := blockIndex t
  have hrow : t.val * 6000 + (j 0).val < 600000 := by omega
  have hemb : ((cfg4.win 3).blk t).view.emb j = ix2 (⟨t.val * 6000 + (j 0).val, hrow⟩ : Fin 600000) (⟨(j 1).val, hj1⟩ : Fin 32) := by
    funext a; apply Fin.ext
    match a with
    | ⟨0, _⟩ => show win4_3.index t (0 : Fin 2) * 6000 + 1 * (j 0).val = t.val * 6000 + (j 0).val; omega
    | ⟨1, _⟩ => show win4_3.index t (1 : Fin 2) * 32 + 1 * (j 1).val = (j 1).val; omega
  have hx : (cfg4.win 3).xinj (grid4.coords t) j = ix2 (⟨(j 0).val, hj0⟩ : Fin 6000) (⟨(j 1).val, hj1⟩ : Fin 32) := by
    funext a
    match a with
    | ⟨0, _⟩ => rfl
    | ⟨1, _⟩ => rfl
  show k4_pay1 (F := Ideal) (iblk4 V c 0 t) (iblk4 V c 1 t) (iblk4 V c 2 t) ((cfg4.win 3).xinj (grid4.coords t) j)
      = Cert.Spec.headRow (F := Ideal) (V c main_v44) (V c main_arg7) (V c main_v45) (((cfg4.win 3).blk t).view.emb j)
  refine ((congrArg (k4_pay1 (F := Ideal) (iblk4 V c 0 t) (iblk4 V c 1 t) (iblk4 V c 2 t)) hx).trans ?_).trans
    (congrArg (Cert.Spec.headRow (F := Ideal) (V c main_v44) (V c main_arg7) (V c main_v45)) hemb).symm
  refine (pay_apply (iblk4 V c 0 t) (iblk4 V c 1 t) (iblk4 V c 2 t) ⟨(j 0).val, hj0⟩ ⟨(j 1).val, hj1⟩).trans ?_
  refine Eq.trans ?_ (headRow_apply (V c main_v44) (V c main_arg7) (V c main_v45) ⟨t.val * 6000 + (j 0).val, hrow⟩ ⟨(j 1).val, hj1⟩).symm
  refine congrArg₂ (· + ·) (Finset.sum_congr rfl fun k _ => congrArg₂ (· * ·) ?_ ?_) ?_
  · exact edgeBlock_apply V c t ⟨(j 0).val, hj0⟩ k ⟨t.val * 6000 + (j 0).val, hrow⟩ rfl
  · exact weightBlock_apply V c t k ⟨(j 1).val, hj1⟩
  · exact biasBlock_apply V c t ⟨(j 1).val, hj1⟩

/-- The output array after the hundred points: the blocks written back are the blocks of one function, and together
    they fill the array. -/
theorem value_of_blocks (c : Dev nD) :
    (dat4 (F := Ideal) V c).arrAt 3 cfg4.N = Cert.Spec.headRow (F := Ideal) (V c main_v44) (V c main_arg7) (V c main_v45) :=
  (dat4 (F := Ideal) V c).arrAt_eq_of_cover 3 (Cert.Spec.headRow (F := Ideal) (V c main_v44) (V c main_arg7) (V c main_v45))
    (fun t _ => flushed_eq V c t) covered

end Array

end Spec

end Entries

variable [Cert.KernelIdeal.Facts] [Cert.ReferenceIdeal.Facts₀]

/-- The array the head region leaves: `Spec.headRow` of the arrays it was entered with. -/
theorem value (V : (c : Dev nD) → (b : Ref sig .tc) → Buf (Elt Ideal) ((c : Thread nD τ).loc b)) (c : Dev nD) :
    (dat4 (F := Ideal) V c).arrAt 3 cfg4.N = Cert.Spec.headRow (F := Ideal) (V c main_v44) (V c main_arg7) (V c main_v45) := by
  exact value_of_blocks V c

end Cert.KernelIdeal.HeadRegion

end
-- ==== Proof.Chain.lean ====
/-
  The idealized kernel's result array as a function of its nine inputs.

  The run alternates stretches of whole-array operations with five tiled matrix regions. Reading the buffer
  contents boundary by boundary: the edge list's two rows, the weight slices and the bias rows are computed once
  from the inputs and never overwritten; the node features after the embedding and after each of the three layers
  are each one region's output array, which is the layer's whole-array function of what the region was entered
  with; the result is the head region's output on the two gathered endpoint rows laid side by side. Where both rows
  of the edge list are in range, every guarded gather is the plain one and the composition is the network `Spec.net`.
-/
import proofs.«416630_j84997402788219_1_alg».proof.Proof.Gen.KernelIdeal.Frame
import proofs.«416630_j84997402788219_1_alg».proof.Proof.Spec
import proofs.«416630_j84997402788219_1_alg».proof.Proof.TakeRows
import proofs.«416630_j84997402788219_1_alg».proof.Proof.Stretches
import proofs.«416630_j84997402788219_1_alg».proof.Proof.EmbRegion
import proofs.«416630_j84997402788219_1_alg».proof.Proof.ConvRegion1
import proofs.«416630_j84997402788219_1_alg».proof.Proof.ConvRegion2
import proofs.«416630_j84997402788219_1_alg».proof.Proof.ConvRegion3
import proofs.«416630_j84997402788219_1_alg».proof.Proof.HeadRegion
import proofs.«416630_j84997402788219_1_alg».proof.Proof.Gen.ReferenceIdeal
import Idealize.ShloMosaic.Lib.StableHlo.Run

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.KernelIdeal.TakeRows Cert.KernelIdeal.Stretches

/-- A buffer that the stretches between two boundaries do not write keeps its contents. -/
local macro "through" : tactic => `(tactic| (after_results <;> rfl))

variable (m : (ℓ : Loc nD τ sig) → Buf (Elt Ideal) ℓ) (ρ : Dev nD → PrngReg) (c : Dev nD)

/-! ## What never changes: the edge list's rows and the inputs the later stretches slice -/

/-- The source row of the edge list, as the first stretch computes it from the launch contents. -/
abbrev src : IVec S600000 32 := Cert.Spec.srcOf (m ((c : Thread nD τ).loc main_arg1))
/-- The destination row of the edge list. -/
abbrev dst : IVec S600000 32 := Cert.Spec.dstOf (m ((c : Thread nD τ).loc main_arg1))

/-- At a boundary's contents `W`: the two rows of the edge list and the five inputs later stretches read are what
    the launch memory gives. -/
def Kept (W : Valuation τ sig (Elt Ideal)) : Prop :=
  W (Proc.devRef .tc main_v1) = src m c ∧ W (Proc.devRef .tc main_v3) = dst m c
    ∧ W (Proc.devRef .tc main_arg4) = m ((c : Thread nD τ).loc main_arg4)
    ∧ W (Proc.devRef .tc main_arg5) = m ((c : Thread nD τ).loc main_arg5)
    ∧ W (Proc.devRef .tc main_arg6) = m ((c : Thread nD τ).loc main_arg6)
    ∧ W (Proc.devRef .tc main_arg7) = m ((c : Thread nD τ).loc main_arg7)
    ∧ W (Proc.devRef .tc main_arg8) = m ((c : Thread nD τ).loc main_arg8)

theorem kept2 : Kept m c (W2 m ρ c) := by
  refine ⟨?_, ?_, ?_, ?_, ?_, ?_, ?_⟩
  · refine (W2_of_ne m ρ c main_v1 (by decide)).trans ?_
    show StableHlo.after hostOps0 (W0 m ρ c) (Proc.devRef .tc main_v1) = _
    after_results; rfl
  · refine (W2_of_ne m ρ c main_v3 (by decide)).trans ?_
    show StableHlo.after hostOps0 (W0 m ρ c) (Proc.devRef .tc main_v3) = _
    after_results; rfl
  · refine (W2_of_ne m ρ c main_arg4 (by decide)).trans ?_
    show StableHlo.after hostOps0 (W0 m ρ c) (Proc.devRef .tc main_arg4) = _
    through
  · refine (W2_of_ne m ρ c main_arg5 (by decide)).trans ?_
    show StableHlo.after hostOps0 (W0 m ρ c) (Proc.devRef .tc main_arg5) = _
    through
  · refine (W2_of_ne m ρ c main_arg6 (by decide)).trans ?_
    show StableHlo.after hostOps0 (W0 m ρ c) (Proc.devRef .tc main_arg6) = _
    through
  · refine (W2_of_ne m ρ c main_arg7 (by decide)).trans ?_
    show StableHlo.after hostOps0 (W0 m ρ c) (Proc.devRef .tc main_arg7) = _
    through
  · refine (W2_of_ne m ρ c main_arg8 (by decide)).trans ?_
    show StableHlo.after hostOps0 (W0 m ρ c) (Proc.devRef .tc main_arg8) = _
    through

theorem kept5 : Kept m c (W5 m ρ c) := by
  obtain ⟨h1, h3, h4, h5, h6, h7, h8⟩ := kept2 m ρ c
  refine ⟨?_, ?_, ?_, ?_, ?_, ?_, ?_⟩
  · refine (W5_of_ne m ρ c main_v1 (by decide)).trans (Eq.trans ?_ h1)
    show StableHlo.after hostOps1_1 (StableHlo.after hostOps1 (W2 m ρ c)) (Proc.devRef .tc main_v1) = _
    through
  · refine (W5_of_ne m ρ c main_v3 (by decide)).trans (Eq.trans ?_ h3)
    show StableHlo.after hostOps1_1 (StableHlo.after hostOps1 (W2 m ρ c)) (Proc.devRef .tc main_v3) = _
    through
  · refine (W5_of_ne m ρ c main_arg4 (by decide)).trans (Eq.trans ?_ h4)
    show StableHlo.after hostOps1_1 (StableHlo.after hostOps1 (W2 m ρ c)) (Proc.devRef .tc main_arg4) = _
    through
  · refine (W5_of_ne m ρ c main_arg5 (by decide)).trans (Eq.trans ?_ h5)
    show StableHlo.after hostOps1_1 (StableHlo.after hostOps1 (W2 m ρ c)) (Proc.devRef .tc main_arg5) = _
    through
  · refine (W5_of_ne m ρ c main_arg6 (by decide)).trans (Eq.trans ?_ h6)
    show StableHlo.after hostOps1_1 (StableHlo.after hostOps1 (W2 m ρ c)) (Proc.devRef .tc main_arg6) = _
    through
  · refine (W5_of_ne m ρ c main_arg7 (by decide)).trans (Eq.trans ?_ h7)
    show StableHlo.after hostOps1_1 (StableHlo.after hostOps1 (W2 m ρ c)) (Proc.devRef .tc main_arg7) = _
    through
  · refine (W5_of_ne m ρ c main_arg8 (by decide)).trans (Eq.trans ?_ h8)
    show StableHlo.after hostOps1_1 (StableHlo.after hostOps1 (W2 m ρ c)) (Proc.devRef .tc main_arg8) = _
    through

theorem kept8 : Kept m c (W8 m ρ c) := by
  obtain ⟨h1, h3, h4, h5, h6, h7, h8⟩ := kept5 m ρ c
  refine ⟨?_, ?_, ?_, ?_, ?_, ?_, ?_⟩
  · refine (W8_of_ne m ρ c main_v1 (by decide)).trans (Eq.trans ?_ h1)
    show StableHlo.after hostOps2_1 (StableHlo.after hostOps2 (W5 m ρ c)) (Proc.devRef .tc main_v1) = _
    through
  · refine (W8_of_ne m ρ c main_v3 (by decide)).trans (Eq.trans ?_ h3)
    show StableHlo.after hostOps2_1 (StableHlo.after hostOps2 (W5 m ρ c)) (Proc.devRef .tc main_v3) = _
    through
  · refine (W8_of_ne m ρ c main_arg4 (by decide)).trans (Eq.trans ?_ h4)
    show StableHlo.after hostOps2_1 (StableHlo.after hostOps2 (W5 m ρ c)) (Proc.devRef .tc main_arg4) = _
    through
  · refine (W8_of_ne m ρ c main_arg5 (by decide)).trans (Eq.trans ?_ h5)
    show StableHlo.after hostOps2_1 (StableHlo.after hostOps2 (W5 m ρ c)) (Proc.devRef .tc main_arg5) = _
    through
  · refine (W8_of_ne m ρ c main_arg6 (by decide)).trans (Eq.trans ?_ h6)
    show StableHlo.after hostOps2_1 (StableHlo.after hostOps2 (W5 m ρ c)) (Proc.devRef .tc main_arg6) = _
    through
  · refine (W8_of_ne m ρ c main_arg7 (by decide)).trans (Eq.trans ?_ h7)
    show StableHlo.after hostOps2_1 (StableHlo.after hostOps2 (W5 m ρ c)) (Proc.devRef .tc main_arg7) = _
    through
  · refine (W8_of_ne m ρ c main_arg8 (by decide)).trans (Eq.trans ?_ h8)
    show StableHlo.after hostOps2_1 (StableHlo.after hostOps2 (W5 m ρ c)) (Proc.devRef .tc main_arg8) = _
    through

theorem kept11 : Kept m c (W11 m ρ c) := by
  obtain ⟨h1, h3, h4, h5, h6, h7, h8⟩ := kept8 m ρ c
  refine ⟨?_, ?_, ?_, ?_, ?_, ?_, ?_⟩
  · refine (W11_of_ne m ρ c main_v1 (by decide)).trans (Eq.trans ?_ h1)
    show StableHlo.after hostOps3_1 (StableHlo.after hostOps3 (W8 m ρ c)) (Proc.devRef .tc main_v1) = _
    through
  · refine (W11_of_ne m ρ c main_v3 (by decide)).trans (Eq.trans ?_ h3)
    show StableHlo.after hostOps3_1 (StableHlo.after hostOps3 (W8 m ρ c)) (Proc.devRef .tc main_v3) = _
    through
  · refine (W11_of_ne m ρ c main_arg4 (by decide)).trans (Eq.trans ?_ h4)
    show StableHlo.after hostOps3_1 (StableHlo.after hostOps3 (W8 m ρ c)) (Proc.devRef .tc main_arg4) = _
    through
  · refine (W11_of_ne m ρ c main_arg5 (by decide)).trans (Eq.trans ?_ h5)
    show StableHlo.after hostOps3_1 (StableHlo.after hostOps3 (W8 m ρ c)) (Proc.devRef .tc main_arg5) = _
    through
  · refine (W11_of_ne m ρ c main_arg6 (by decide)).trans (Eq.trans ?_ h6)
    show StableHlo.after hostOps3_1 (StableHlo.after hostOps3 (W8 m ρ c)) (Proc.devRef .tc main_arg6) = _
    through
  · refine (W11_of_ne m ρ c main_arg7 (by decide)).trans (Eq.trans ?_ h7)
    show StableHlo.after hostOps3_1 (StableHlo.after hostOps3 (W8 m ρ c)) (Proc.devRef .tc main_arg7) = _
    through
  · refine (W11_of_ne m ρ c main_arg8 (by decide)).trans (Eq.trans ?_ h8)
    show StableHlo.after hostOps3_1 (StableHlo.after hostOps3 (W8 m ρ c)) (Proc.devRef .tc main_arg8) = _
    through

/-! ## The node features, boundary by boundary -/

/-- The node features after the embedding (region 0's output array), and after layers 1, 2, 3. -/
def x0 : FVec Ideal S50000x128 .f32 := W2 m ρ c (Proc.devRef .tc main_v5)
def x1 : FVec Ideal S50000x128 .f32 := W5 m ρ c (Proc.devRef .tc main_v17)
def x2 : FVec Ideal S50000x128 .f32 := W8 m ρ c (Proc.devRef .tc main_v29)
def x3 : FVec Ideal S50000x128 .f32 := W11 m ρ c (Proc.devRef .tc main_v41)

/-- The embedding region leaves `max(X·W + b, 0)` of the feature matrix, the embedding matrix and the bias reshaped to
    a row, each as launched: the one stretch before it only slices the edge list and reshapes the bias. -/
theorem x0_eq : x0 m ρ c = Cert.Spec.embRow (F := Ideal) (m ((c : Thread nD τ).loc main_arg0)) (m ((c : Thread nD τ).loc main_arg2))
    (shapeCast S1x128 (m ((c : Thread nD τ).loc main_arg3)) shapeCasts_S128_S1x128) := by
  unfold x0
  refine (W2_arr m ρ c 3).trans ((EmbRegion.value (V1 m ρ) c).trans ?_)
  have e0 : V1 m ρ c main_arg0 = m ((c : Thread nD τ).loc main_arg0) := by
    show StableHlo.after hostOps0 (W0 m ρ c) (Proc.devRef .tc main_arg0) = _
    through
  have e2 : V1 m ρ c main_arg2 = m ((c : Thread nD τ).loc main_arg2) := by
    show StableHlo.after hostOps0 (W0 m ρ c) (Proc.devRef .tc main_arg2) = _
    through
  have e4 : V1 m ρ c main_v4 = shapeCast S1x128 (m ((c : Thread nD τ).loc main_arg3)) shapeCasts_S128_S1x128 := by
    show StableHlo.after hostOps0 (W0 m ρ c) (Proc.devRef .tc main_v4) = _
    after_results; rfl
  rw [e0, e2, e4]

set_option maxHeartbeats 1000000 in
/-- The node features after layer 1: the layer's region leaves `Spec.convRow` of what it was entered with — the
    segment sum of the guarded gather of the previous features, the previous features themselves, and the layer's
    slices of the weight stacks. -/
theorem x1_eq : x1 m ρ c = Cert.Spec.convRow (F := Ideal) (Cert.Spec.segSum (F := Ideal) (dst m c) (takeRows (F := Ideal) (x0 m ρ c) (src m c))) (x0 m ρ c)
    (Cert.Spec.mat0 (F := Ideal) (m ((c : Thread nD τ).loc main_arg4))) (shapeCast S1x128 (Cert.Spec.vec0 (F := Ideal) (m ((c : Thread nD τ).loc main_arg5))) shapeCasts_S128_S1x128)
    (Cert.Spec.mat0 (F := Ideal) (m ((c : Thread nD τ).loc main_arg6))) := by
  obtain ⟨h1, h3, h4, h5, h6, h7, h8⟩ := kept2 m ρ c
  unfold x1 x0
  refine (W5_arr m ρ c 5).trans ((ConvRegion1.value (V4 m ρ) c).trans ?_)
  have eAgg : V4 m ρ c main_v9 = Cert.Spec.segSum (F := Ideal) (W2 m ρ c (Proc.devRef .tc main_v3))
      (takeRows (F := Ideal) (W2 m ρ c (Proc.devRef .tc main_v5)) (W2 m ρ c (Proc.devRef .tc main_v1))) := by
    show StableHlo.after hostOps1_1 (StableHlo.after hostOps1 (W2 m ρ c)) (Proc.devRef .tc main_v9) = _
    rw [agg1, take1, keep1_dst]
  have eX : V4 m ρ c main_v5 = W2 m ρ c (Proc.devRef .tc main_v5) := by
    show StableHlo.after hostOps1_1 (StableHlo.after hostOps1 (W2 m ρ c)) (Proc.devRef .tc main_v5) = _
    through
  have eRelw : V4 m ρ c main_v11 = Cert.Spec.mat0 (F := Ideal) (W2 m ρ c (Proc.devRef .tc main_arg4)) := by
    show StableHlo.after hostOps1_1 (StableHlo.after hostOps1 (W2 m ρ c)) (Proc.devRef .tc main_v11) = _
    after_results; rfl
  have eRelb : V4 m ρ c main_v16 = shapeCast S1x128 (Cert.Spec.vec0 (F := Ideal) (W2 m ρ c (Proc.devRef .tc main_arg5))) shapeCasts_S128_S1x128 := by
    show StableHlo.after hostOps1_1 (StableHlo.after hostOps1 (W2 m ρ c)) (Proc.devRef .tc main_v16) = _
    after_results; rfl
  have eRootw : V4 m ρ c main_v15 = Cert.Spec.mat0 (F := Ideal) (W2 m ρ c (Proc.devRef .tc main_arg6)) := by
    show StableHlo.after hostOps1_1 (StableHlo.after hostOps1 (W2 m ρ c)) (Proc.devRef .tc main_v15) = _
    after_results; rfl
  rw [eAgg, eX, eRelw, eRelb, eRootw, h1, h3, h4, h5, h6]

set_option maxHeartbeats 1000000 in
/-- The node features after layer 2: the layer's region leaves `Spec.convRow` of what it was entered with — the
    segment sum of the guarded gather of the previous features, the previous features themselves, and the layer's
    slices of the weight stacks. -/
theorem x2_eq : x2 m ρ c = Cert.Spec.convRow (F := Ideal) (Cert.Spec.segSum (F := Ideal) (dst m c) (takeRows (F := Ideal) (x1 m ρ c) (src m c))) (x1 m ρ c)
    (Cert.Spec.mat1 (F := Ideal) (m ((c : Thread nD τ).loc main_arg4))) (shapeCast S1x128 (Cert.Spec.vec1 (F := Ideal) (m ((c : Thread nD τ).loc main_arg5))) shapeCasts_S128_S1x128)
    (Cert.Spec.mat1 (F := Ideal) (m ((c : Thread nD τ).loc main_arg6))) := by
  obtain ⟨h1, h3, h4, h5, h6, h7, h8⟩ := kept5 m ρ c
  unfold x2 x1
  refine (W8_arr m ρ c 5).trans ((ConvRegion2.value (V7 m ρ) c).trans ?_)
  have eAgg : V7 m ρ c main_v21 = Cert.Spec.segSum (F := Ideal) (W5 m ρ c (Proc.devRef .tc main_v3))
      (takeRows (F := Ideal) (W5 m ρ c (Proc.devRef .tc main_v17)) (W5 m ρ c (Proc.devRef .tc main_v1))) := by
    show StableHlo.after hostOps2_1 (StableHlo.after hostOps2 (W5 m ρ c)) (Proc.devRef .tc main_v21) = _
    rw [agg2, take2, keep2_dst]
  have eX : V7 m ρ c main_v17 = W5 m ρ c (Proc.devRef .tc main_v17) := by
    show StableHlo.after hostOps2_1 (StableHlo.after hostOps2 (W5 m ρ c)) (Proc.devRef .tc main_v17) = _
    through
  have eRelw : V7 m ρ c main_v23 = Cert.Spec.mat1 (F := Ideal) (W5 m ρ c (Proc.devRef .tc main_arg4)) := by
    show StableHlo.after hostOps2_1 (StableHlo.after hostOps2 (W5 m ρ c)) (Proc.devRef .tc main_v23) = _
    after_results; rfl
  have eRelb : V7 m ρ c main_v28 = shapeCast S1x128 (Cert.Spec.vec1 (F := Ideal) (W5 m ρ c (Proc.devRef .tc main_arg5))) shapeCasts_S128_S1x128 := by
    show StableHlo.after hostOps2_1 (StableHlo.after hostOps2 (W5 m ρ c)) (Proc.devRef .tc main_v28) = _
    after_results; rfl
  have eRootw : V7 m ρ c main_v27 = Cert.Spec.mat1 (F := Ideal) (W5 m ρ c (Proc.devRef .tc main_arg6)) := by
    show StableHlo.after hostOps2_1 (StableHlo.after hostOps2 (W5 m ρ c)) (Proc.devRef .tc main_v27) = _
    after_results; rfl
  rw [eAgg, eX, eRelw, eRelb, eRootw, h1, h3, h4, h5, h6]

set_option maxHeartbeats 1000000 in
/-- The node features after layer 3: the layer's region leaves `Spec.convRow` of what it was entered with — the
    segment sum of the guarded gather of the previous features, the previous features themselves, and the layer's
    slices of the weight stacks. -/
theorem x3_eq : x3 m ρ c = Cert.Spec.convRow (F := Ideal) (Cert.Spec.segSum (F := Ideal) (dst m c) (takeRows (F := Ideal) (x2 m ρ c) (src m c))) (x2 m ρ c)
    (Cert.Spec.mat2 (F := Ideal) (m ((c : Thread nD τ).loc main_arg4))) (shapeCast S1x128 (Cert.Spec.vec2 (F := Ideal) (m ((c : Thread nD τ).loc main_arg5))) shapeCasts_S128_S1x128)
    (Cert.Spec.mat2 (F := Ideal) (m ((c : Thread nD τ).loc main_arg6))) := by
  obtain ⟨h1, h3, h4, h5, h6, h7, h8⟩ := kept8 m ρ c
  unfold x3 x2
  refine (W11_arr m ρ c 5).trans ((ConvRegion3.value (V10 m ρ) c).trans ?_)
  have eAgg : V10 m ρ c main_v33 = Cert.Spec.segSum (F := Ideal) (W8 m ρ c (Proc.devRef .tc main_v3))
      (takeRows (F := Ideal) (W8 m ρ c (Proc.devRef .tc main_v29)) (W8 m ρ c (Proc.devRef .tc main_v1))) := by
    show StableHlo.after hostOps3_1 (StableHlo.after hostOps3 (W8 m ρ c)) (Proc.devRef .tc main_v33) = _
    rw [agg3, take3, keep3_dst]
  have eX : V10 m ρ c main_v29 = W8 m ρ c (Proc.devRef .tc main_v29) := by
    show StableHlo.after hostOps3_1 (StableHlo.after hostOps3 (W8 m ρ c)) (Proc.devRef .tc main_v29) = _
    through
  have eRelw : V10 m ρ c main_v35 = Cert.Spec.mat2 (F := Ideal) (W8 m ρ c (Proc.devRef .tc main_arg4)) := by
    show StableHlo.after hostOps3_1 (StableHlo.after hostOps3 (W8 m ρ c)) (Proc.devRef .tc main_v35) = _
    after_results; rfl
  have eRelb : V10 m ρ c main_v40 = shapeCast S1x128 (Cert.Spec.vec2 (F := Ideal) (W8 m ρ c (Proc.devRef .tc main_arg5))) shapeCasts_S128_S1x128 := by
    show StableHlo.after hostOps3_1 (StableHlo.after hostOps3 (W8 m ρ c)) (Proc.devRef .tc main_v40) = _
    after_results; rfl
  have eRootw : V10 m ρ c main_v39 = Cert.Spec.mat2 (F := Ideal) (W8 m ρ c (Proc.devRef .tc main_arg6)) := by
    show StableHlo.after hostOps3_1 (StableHlo.after hostOps3 (W8 m ρ c)) (Proc.devRef .tc main_v39) = _
    after_results; rfl
  rw [eAgg, eX, eRelw, eRelb, eRootw, h1, h3, h4, h5, h6]

/-! ## The result -/

set_option maxHeartbeats 1000000 in
/-- The result array: the head region's output on the two guarded gathers of the last features laid side by side,
    the head matrix and the head bias reshaped to a row. -/
theorem out_eq : W15 m ρ c (Proc.devRef .tc main_v46)
    = Cert.Spec.headRow (F := Ideal) (Cert.Spec.edgeFeat (F := Ideal) (takeRows (F := Ideal) (x3 m ρ c) (src m c)) (takeRows (F := Ideal) (x3 m ρ c) (dst m c)))
        (m ((c : Thread nD τ).loc main_arg7)) (shapeCast S1x32 (m ((c : Thread nD τ).loc main_arg8)) shapeCasts_S32_S1x32) := by
  obtain ⟨h1, h3, h4, h5, h6, h7, h8⟩ := kept11 m ρ c
  unfold x3
  refine (W15_arr m ρ c 3).trans ((HeadRegion.value (V14 m ρ) c).trans ?_)
  have eE : V14 m ρ c main_v44 = Cert.Spec.edgeFeat
      (takeRows (F := Ideal) (W11 m ρ c (Proc.devRef .tc main_v41)) (W11 m ρ c (Proc.devRef .tc main_v1)))
      (takeRows (F := Ideal) (W11 m ρ c (Proc.devRef .tc main_v41)) (W11 m ρ c (Proc.devRef .tc main_v3))) := by
    show StableHlo.after hostOps4_2 (StableHlo.after hostOps4_1 (StableHlo.after hostOps4 (W11 m ρ c))) (Proc.devRef .tc main_v44) = _
    rw [sideBySide, take5, keep5_gathered, take4, keep4_feat, keep4_dst]
  have eW : V14 m ρ c main_arg7 = W11 m ρ c (Proc.devRef .tc main_arg7) := by
    show StableHlo.after hostOps4_2 (StableHlo.after hostOps4_1 (StableHlo.after hostOps4 (W11 m ρ c))) (Proc.devRef .tc main_arg7) = _
    through
  have eB : V14 m ρ c main_v45 = shapeCast S1x32 (W11 m ρ c (Proc.devRef .tc main_arg8)) shapeCasts_S32_S1x32 := by
    show StableHlo.after hostOps4_2 (StableHlo.after hostOps4_1 (StableHlo.after hostOps4 (W11 m ρ c))) (Proc.devRef .tc main_v45) = _
    after_results; rfl
  rw [eE, eW, eB, h1, h3, h7, h8]

set_option maxHeartbeats 1000000 in
/-- With both rows of the edge list in range the result array is the network of the nine inputs: every guarded gather
    is the plain one, a bias reshaped to a row is the bias broadcast to a row, and what is left is the network's own
    composition. -/
theorem result_eq (hs : InRange (src m c)) (hd : InRange (dst m c)) :
    W15 m ρ c (Proc.devRef .tc main_v46)
      = Cert.Spec.net (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) := by
  -- the features after the embedding and after each layer, in the network's own words
  have e0 : x0 m ρ c = Cert.Spec.embRow (F := Ideal) (m ((c : Thread nD τ).loc main_arg0)) (m ((c : Thread nD τ).loc main_arg2)) (Cert.Spec.rowOf128 (F := Ideal) (m ((c : Thread nD τ).loc main_arg3))) := by
    exact (x0_eq m ρ c).trans (congrArg (Cert.Spec.embRow (F := Ideal) _ _) (rowOf128_eq (F := Ideal) _ _))
  have e1 : x1 m ρ c = Cert.Spec.layer (F := Ideal) (src m c) (dst m c) (x0 m ρ c)
      (Cert.Spec.mat0 (F := Ideal) (m ((c : Thread nD τ).loc main_arg4))) (Cert.Spec.vec0 (F := Ideal) (m ((c : Thread nD τ).loc main_arg5))) (Cert.Spec.mat0 (F := Ideal) (m ((c : Thread nD τ).loc main_arg6))) := by
    rw [x1_eq, takeRows_eq _ _ hs, rowOf128_eq]
    rfl
  have e2 : x2 m ρ c = Cert.Spec.layer (F := Ideal) (src m c) (dst m c) (x1 m ρ c)
      (Cert.Spec.mat1 (F := Ideal) (m ((c : Thread nD τ).loc main_arg4))) (Cert.Spec.vec1 (F := Ideal) (m ((c : Thread nD τ).loc main_arg5))) (Cert.Spec.mat1 (F := Ideal) (m ((c : Thread nD τ).loc main_arg6))) := by
    rw [x2_eq, takeRows_eq _ _ hs, rowOf128_eq]
    rfl
  have e3 : x3 m ρ c = Cert.Spec.layer (F := Ideal) (src m c) (dst m c) (x2 m ρ c)
      (Cert.Spec.mat2 (F := Ideal) (m ((c : Thread nD τ).loc main_arg4))) (Cert.Spec.vec2 (F := Ideal) (m ((c : Thread nD τ).loc main_arg5))) (Cert.Spec.mat2 (F := Ideal) (m ((c : Thread nD τ).loc main_arg6))) := by
    rw [x3_eq, takeRows_eq _ _ hs, rowOf128_eq]
    rfl
  rw [out_eq, takeRows_eq _ _ hs, takeRows_eq _ _ hd, e3, e2, e1, e0]
  refine (congrArg (Cert.Spec.headRow (F := Ideal) _ _) (rowOf32_eq (F := Ideal) _ _)).trans ?_
  rfl

end Cert.KernelIdeal.Chain

end
-- ==== Proof.RefValue.lean ====
/-
  The reference's result as the network of `Spec`: its run ends with the result array at the composed term of its
  operations, and that term is, operation for operation, the network's function of the nine inputs — the embedding,
  three layers of gather, segment sum and mixing, and the edge head.
-/
import proofs.«416630_j84997402788219_1_alg».proof.Proof.Gen.ReferenceIdeal.Run
import proofs.«416630_j84997402788219_1_alg».proof.Proof.Spec

set_option maxRecDepth 16384

noncomputable section

namespace Cert.ReferenceIdeal.RefValue

open Idealize.ShloMosaic Idealize.ShloMosaic.TcCoe Idealize.SL.Sem Cert.ReferenceIdeal

/-- The composed term of the reference's operations is the network applied to the launch contents of the nine
    arguments. -/
theorem result_eq (m : (ℓ : Loc nD τ sig) → Buf (Elt Ideal) ℓ) (c : Dev nD) :
    Cert.ReferenceIdeal.Value.res_main_v96 (F := Ideal) m c
      = Cert.Spec.net (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v96
  rfl

end Cert.ReferenceIdeal.RefValue

end
-- ==== Proof.lean ====
/-
  Both programs compute one network on a graph of 50000 nodes and 600000 edges: a node embedding
  `max(X·W + b, 0)`, three layers `x' = max(agg·W_rel + b_rel + x·W_root, 0)` where `agg` sums, per destination
  node, the rows gathered at the edges' source nodes, and an edge head on the two endpoint rows of every edge.

  The kernel does the gathers and the segment sums with whole-array operations and the five matrix stages with tiled
  regions that cast to bf16 and accumulate in f32; over the extended reals a cast is the identity and a matrix stage
  is the plain sum of products, so every region leaves the layer's whole-array function of what it was entered with
  (the modules `EmbRegion`, `ConvRegion1` … `ConvRegion3`, `HeadRegion`; a layer's three summands are added in
  another order than the reference's, which addition's commutativity and associativity absorb). The kernel's gather
  fills a row with a NaN pattern where its index falls outside `[0, 49999]`; the reference's gather does not test.
  The precondition says every entry of the edge list lies in `[0, 50000)` — outside that range the reference itself
  indexes out of range — and there the two gathers agree (`TakeRows`). `Chain` composes the kernel's result from
  boundary to boundary into the network `Spec.net`, and `RefValue` reads the reference's result as the same term.
-/
import proofs.«416630_j84997402788219_1_alg».proof.Defs
import proofs.«416630_j84997402788219_1_alg».proof.Proof.Gen.Kernel
import proofs.«416630_j84997402788219_1_alg».proof.Proof.Gen.Kernel.Frame
import proofs.«416630_j84997402788219_1_alg».proof.Proof.Gen.KernelIdeal
import proofs.«416630_j84997402788219_1_alg».proof.Proof.Gen.KernelIdeal.Frame
import proofs.«416630_j84997402788219_1_alg».proof.Proof.Gen.ReferenceIdeal
import proofs.«416630_j84997402788219_1_alg».proof.Proof.Gen.ReferenceIdeal.Run
import proofs.«416630_j84997402788219_1_alg».proof.Proof.Gen.Pre_finite_inputs
import proofs.«416630_j84997402788219_1_alg».proof.Proof.RunValue
import proofs.«416630_j84997402788219_1_alg».proof.Proof.Chain
import proofs.«416630_j84997402788219_1_alg».proof.Proof.RefValue
import proofs.«416630_j84997402788219_1_alg».proof.Proof.TakeRows
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the nine inputs, with every edge-list entry in range, both runs end with the result
    array at the network of the inputs. -/
theorem algebraic : Cert.algebraic_KernelIdeal_ReferenceIdeal := by
  intro m ρ m' ρ' hpre hagree
  have hrange := fun c : Dev Cert.KernelIdeal.nD => Cert.KernelIdeal.TakeRows.edges_inRange _ _ _ _ _ _ _ _ _ (hpre c)
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq m ρ c (hrange c).1 (hrange c).2), (h c).2⟩)
      (Cert.KernelIdeal.RunValue.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
